-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S_ : Shape := ⟨0, ![]⟩
abbrev S2x8192 : Shape := ⟨2, ![2, 8192]⟩
abbrev S2x8192x1 : Shape := ⟨3, ![2, 8192, 1]⟩
abbrev S2x1x8192 : Shape := ⟨3, ![2, 1, 8192]⟩
abbrev S2x3x8192 : Shape := ⟨3, ![2, 3, 8192]⟩
abbrev S2 : Shape := ⟨1, ![2]⟩
abbrev S1x256x3 : Shape := ⟨3, ![1, 256, 3]⟩
abbrev S1x3x8192 : Shape := ⟨3, ![1, 3, 8192]⟩
abbrev S1x256x1 : Shape := ⟨3, ![1, 256, 1]⟩
abbrev S1x1x8192 : Shape := ⟨3, ![1, 1, 8192]⟩
abbrev S1x8192 : Shape := ⟨2, ![1, 8192]⟩
abbrev S256x3 : Shape := ⟨2, ![256, 3]⟩
abbrev S3x8192 : Shape := ⟨2, ![3, 8192]⟩
abbrev S256x8192 : Shape := ⟨2, ![256, 8192]⟩
abbrev S256x1 : Shape := ⟨2, ![256, 1]⟩
abbrev S256 : Shape := ⟨1, ![256]⟩
abbrev S8192 : Shape := ⟨1, ![8192]⟩

abbrev nBuf : Space → Nat
  | .hbm => 30
  | .vmem => 13
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S2x1x8192, .f32⟩
  | .hbm, ⟨10, _⟩ => ⟨S2x3x8192, .f32⟩
  | .hbm, ⟨11, _⟩ => ⟨S2x8192x1, .f32⟩
  | .hbm, ⟨12, _⟩ => ⟨S2x1x8192, .f32⟩
  | .hbm, ⟨13, _⟩ => ⟨S2x8192, .f32⟩
  | .hbm, ⟨14, _⟩ => ⟨S2x8192, .f32⟩
  | .hbm, ⟨15, _⟩ => ⟨S_, .f32⟩
  | .hbm, ⟨16, _⟩ => ⟨S2, .f32⟩
  | .hbm, ⟨17, _⟩ => ⟨S_, .f32⟩
  | .hbm, ⟨18, _⟩ => ⟨S2, .f32⟩
  | .hbm, ⟨19, _⟩ => ⟨S2, .f32⟩
  | .hbm, ⟨20, _⟩ => ⟨S_, .f32⟩
  | .hbm, ⟨21, _⟩ => ⟨S2, .f32⟩
  | .hbm, ⟨22, _⟩ => ⟨S_, .f32⟩
  | .hbm, ⟨23, _⟩ => ⟨S2, .f32⟩
  | .hbm, ⟨24, _⟩ => ⟨S2, .f32⟩
  | .hbm, ⟨25, _⟩ => ⟨S2, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x3x8192, .f32⟩
  | .local _ .vmem, ⟨3, _⟩ => ⟨S1x3x8192, .f32⟩
  | .local _ .vmem, ⟨4, _⟩ => ⟨S1x256x1, .f32⟩
  | .local _ .vmem, ⟨5, _⟩ => ⟨S1x256x1, .f32⟩
  | .local _ .vmem, ⟨6, _⟩ => ⟨S1x1x8192, .f32⟩
  | .local _ .vmem, ⟨7, _⟩ => ⟨S1x1x8192, .f32⟩
  | .local _ .vmem, ⟨8, _⟩ => ⟨S1x256x1, .f32⟩
  | .local _ .vmem, ⟨9, _⟩ => ⟨S1x256x1, .f32⟩
  | .local _ .vmem, ⟨10, _⟩ => ⟨S1x1x8192, .f32⟩
  | .local _ .vmem, ⟨11, _⟩ => ⟨S1x1x8192, .f32⟩
  | .local _ .vmem, ⟨12, _⟩ => ⟨S1x8192, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_cst_0 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7_0 : Ref sig .tc := ⟨.hbm, 11, rfl⟩
abbrev main_call0_v7_1 : Ref sig .tc := ⟨.hbm, 12, rfl⟩
abbrev main_call0_v8 : Ref sig .tc := ⟨.hbm, 13, rfl⟩
abbrev main_call0_v9 : Ref sig .tc := ⟨.hbm, 14, rfl⟩
abbrev main_call0_cst_1 : Ref sig .tc := ⟨.hbm, 15, rfl⟩
abbrev main_call0_v10 : Ref sig .tc := ⟨.hbm, 16, rfl⟩
abbrev main_call0_cst_2 : Ref sig .tc := ⟨.hbm, 17, rfl⟩
abbrev main_call0_v11 : Ref sig .tc := ⟨.hbm, 18, rfl⟩
abbrev main_call0_v12 : Ref sig .tc := ⟨.hbm, 19, rfl⟩
abbrev main_call0_cst_3 : Ref sig .tc := ⟨.hbm, 20, rfl⟩
abbrev main_call0_v13 : Ref sig .tc := ⟨.hbm, 21, rfl⟩
abbrev main_call0_cst_4 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_cst_5 : Ref sig .tc := ⟨.hbm, 26, rfl⟩
abbrev main_call0_v17 : Ref sig .tc := ⟨.hbm, 27, rfl⟩
abbrev main_call0_cst_6 : Ref sig .tc := ⟨.hbm, 28, rfl⟩
abbrev main_v0 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def k0_cond3 (i : grid0.Coords) : BitVec 1 :=
  let arg1 : BitVec 32 := BitVec.ofNat 32 (i 1).val
  let c31_i32 : BitVec 32 := 31#32
  let v33 : BitVec 1 := Scalar.cmpi .eq arg1 c31_i32
  let v34 : BitVec 32 := Scalar.extui v33
  let c0_i32_21 : BitVec 32 := 0#32
  let v35 : BitVec 1 := Scalar.cmpi .ne v34 c0_i32_21
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  transposes_S2x8192x3_S2x3x8192_0_2_1 : S2x8192x3.Transposes [0, 2, 1] S2x3x8192
  shapeCasts_S2x8192x1_S2x8192 : S2x8192x1.ShapeCasts S2x8192
  shapeCasts_S2x1x8192_S2x8192 : S2x1x8192.ShapeCasts S2x8192
  reducesTo_S2x8192_S2_d1 : S2x8192.ReducesTo [1] S2
  bcast_S_S2 : S_.BroadcastsInDim S2 (![] : Fin 0 → Fin S2.rank)
  reducesTo_S2_S_d0 : S2.ReducesTo [0] S_
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  bitsLt_bf16_f32 : FTy.bits .bf16 < FTy.bits .f32
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  shapeCasts_S256x1_S1x256x1 : S256x1.ShapeCasts S1x256x1
  reduces_S256x8192_S8192 : S256x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  shapeCasts_S1x8192_S1x1x8192 : S1x8192.ShapeCasts S1x1x8192
  dot_S256x3_S3x8192_S256x8192_1_0_0_1_n_n_wf : DotDims.WF S256x3 S3x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S2x8192x3.size a
  hwx0_0 : ∀ i : grid0.Coords, EltTy.bits .f32 = 32 ∨ (Rect.block (s := S2x8192x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S2x3x8192.size a
  hwx0_1 : ∀ i : grid0.Coords, EltTy.bits .f32 = 32 ∨ (Rect.block (s := S2x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S2x8192x1.size a
  hwx0_2 : ∀ i : grid0.Coords, EltTy.bits .f32 = 32 ∨ (Rect.block (s := S2x8192x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S2x1x8192.size a
  hwx0_3 : ∀ i : grid0.Coords, EltTy.bits .f32 = 32 ∨ (Rect.block (s := S2x1x8192) S1x1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S2x8192x1.size a
  hwx0_4 : ∀ i : grid0.Coords, EltTy.bits .f32 = 32 ∨ (Rect.block (s := S2x8192x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8192.size a ≤ S2x1x8192.size a
  hwx0_5 : ∀ i : grid0.Coords, EltTy.bits .f32 = 32 ∨ (Rect.block (s := S2x1x8192) S1x1x8192.size (cc0_transform_5 i) (hinb0_5 i)).WholeWords (EltTy.packing .f32)

variable [Facts₀]

def dot_S256x3_S3x8192_S256x8192_1_0_0_1_n_n : DotDims S256x3 S3x8192 S256x8192 where
  lhsContracting := [1]
  rhsContracting := [0]
  lhsNonContracting := [0]
  rhsNonContracting := [1]
  lhsBatch := []
  rhsBatch := []
  wf := dot_S256x3_S3x8192_S256x8192_1_0_0_1_n_n_wf

abbrev win0_0 : Pipeline.Window sig grid0 :=
  Pipeline.Window.ofSpec (Memref.whole main_arg1) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x1x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7_0) S1x256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7_1) S1x1x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩
abbrev S2 : Shape := ⟨1, ![2]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192x8192, .f32⟩
  | .hbm, ⟨20, _⟩ => ⟨S2x8192x8192, .f32⟩
  | .hbm, ⟨21, _⟩ => ⟨S2x8192x8192, .f32⟩
  | .hbm, ⟨22, _⟩ => ⟨S_, .f32⟩
  | .hbm, ⟨23, _⟩ => ⟨S2x8192, .f32⟩
  | .hbm, ⟨24, _⟩ => ⟨S_, .f32⟩
  | .hbm, ⟨25, _⟩ => ⟨S2x8192, .f32⟩
  | .hbm, ⟨26, _⟩ => ⟨S_, .f32⟩
  | .hbm, ⟨27, _⟩ => ⟨S2, .f32⟩
  | .hbm, ⟨28, _⟩ => ⟨S_, .f32⟩
  | .hbm, ⟨29, _⟩ => ⟨S2, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S_, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S2_d1 : S2x8192.ReducesTo [1] S2
  bcast_S_S2 : S_.BroadcastsInDim S2 (![] : Fin 0 → Fin S2.rank)
  reducesTo_S2_S_d0 : S2.ReducesTo [0] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.CasesK.lean ====
/-
  The kernel body, one grid point at a time, at any float instance.

  A grid point is (b, k): batch b, row tile k of 256 rows of the first point set. The body forms the 256 x 8192 slab of
  distances between the tile's rows and every point of the second set, stores the slab's row minima into its first
  output block, and folds the slab's column minima into a scratch row that lives across the 32 tiles of a batch: at
  k = 0 the scratch is overwritten with the column minima, at k > 0 it becomes the pointwise minimum of what it held
  and the column minima, and at k = 31 the scratch is copied into the second output block. So there are three control
  cases - first tile, middle tile, last tile - and this module proves the body's triple in each, stating what every
  buffer holds afterwards through the skeleton's payload names.
-/
import proofs.«135267_j4750233829481_1_alg».proof.Proof.Gen.Kernel.Frame
import proofs.«135267_j4750233829481_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions, as the body computes them from the tile coordinate -/

/-- The tile is the first of its batch (k = 0): the scratch row is overwritten. -/
abbrev condFirst (i : grid0.Coords) : Prop := (Scalar.cmpi .ne (Scalar.extui (Scalar.cmpi .eq (BitVec.ofNat 32 (i 1).val) 0#32)) 0#32) = 1#1
/-- The tile is not the first of its batch (k > 0): the scratch row is folded into. -/
abbrev condLater (i : grid0.Coords) : Prop := (Scalar.cmpi .ne (Scalar.extui (Scalar.cmpi .ne (BitVec.ofNat 32 (i 1).val) 0#32)) 0#32) = 1#1
/-- The tile is the last of its batch (k = 31): the scratch row is copied out. -/
abbrev condLast (i : grid0.Coords) : Prop := k0_cond3 i = 1#1

/-- Points are numbered batch-major, 32 tiles a batch: the conditions in closed form over the 64 points. -/
theorem hcondFirst : ∀ t : Fin cfg0.N, condFirst (grid0.coords t) ↔ t.val % 32 = 0 :=
  (by decide +kernel : ∀ t : Fin grid0.N, condFirst (grid0.coords t) ↔ t.val % 32 = 0)
theorem hcondLater : ∀ t : Fin cfg0.N, condLater (grid0.coords t) ↔ ¬ t.val % 32 = 0 :=
  (by decide +kernel : ∀ t : Fin grid0.N, condLater (grid0.coords t) ↔ ¬ t.val % 32 = 0)
theorem hcondLast : ∀ t : Fin cfg0.N, condLast (grid0.coords t) ↔ t.val % 32 = 31 :=
  (by decide +kernel : ∀ t : Fin grid0.N, condLast (grid0.coords t) ↔ t.val % 32 = 31)

/-- The all-zero offsets of a whole-block load or store, at ranks three and two. -/
theorem hz3 : (![0, 0, 0] : Fin 3 → ℕ) = fun _ => 0 := by funext a; fin_cases a <;> rfl
theorem hz2 : (![0, 0] : Fin 2 → ℕ) = fun _ => 0 := by funext a; fin_cases a <;> rfl

/-- A buffer into which ONE whole-block store was made reads as the stored value, whatever it held before. Stated over
    an abstract shape, so that no extent is ever unfolded. -/
theorem read_write_whole {sig' : RefSig} {κ : Kind} {sp : Space} {S : Shape} {e : EltTy} {Val : EltTy → Type} [∀ e, Nonempty (Val e)]
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- The closing step of each triple: the buffer holds one whole-block store, so it reads as the stored value; and the
    value's operands - blocks loaded whole from buffers that read as x, or the scratch row read back after its store -
    are x, respectively the stored row. -/
local macro "close_piece" S:term "," hz:ident : tactic => `(tactic| (
  (try sl_unfold_words)
  (try dsimp only)
  refine (read_write_whole (S := $S) _ _ $hz _ _).trans ?_
  (try simp only [View.readAt_eq_ld, Memref.IsWhole.read_unread, View.readCov_unit_zero (S := S1x8192) _ hz2, View.ld_unit_zero (S := S1x256x3) hz3, View.ld_unit_zero (S := S1x3x8192) hz3, View.ld_unit_zero (S := S1x256x1) hz3, View.ld_unit_zero (S := S1x1x8192) hz3, View.ld_unit_zero (S := S1x8192) hz2])))

/-! ## The body's triple, case by case -/

set_option maxHeartbeats 1000000 in
/-- FIRST TILE (k = 0). The inputs' buffers are left as found; the first output's buffer ends at the slab's row minima;
    the second output's buffer is not touched; the scratch row, whatever it held, ends at the slab's column minima. -/
theorem runFirst (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x256x1 .f32) (harg6 : arg6.IsWhole) (arg7 : Memref sig .tc .vmem S1x1x8192 .f32) (harg7 : arg7.IsWhole) (arg8 : Memref sig .tc .vmem S1x8192 .f32) (harg8 : arg8.IsWhole)
    (hc1 : condFirst i) (hc2 : ¬condLater i) (hc3 : ¬condLast i)
    (x0 : Vec F S1x256x3 .f32) (x1 : Vec F S1x3x8192 .f32) (x2 : Vec F S1x256x1 .f32) (x3 : Vec F S1x1x8192 .f32)
    (xi5 : Vec F S1x1x8192 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay4 x0 x1 x2 x3)
                ∗ owns (c : Thread nD τ) arg7 fullShare xi5
                ∗ owns (c : Thread nD τ) arg8 fullShare (k0_pay6 x0 x1 x2 x3)) -∗ K ⟨⟩))
          ⊢ wp frame (wpE (defs₀ (F := F)) Variants.none c none) E (cc0__chamfer_kernel i arg2 harg2 arg3 harg3 arg4 harg4 arg5 harg5 arg6 harg6 arg7 harg7 arg8 harg8) K := by
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg7.eq_unread hf7
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr
      swap; · iexact H6
      ipureintro; close_piece S1x256x1, hz3
    isplitl [H7]
    · iexists _; isplitr; · ipureintro; exact harg7.read_unread _
      iexact H7
    iexists _; isplitr
    swap; · iexact H8
    ipureintro; close_piece S1x8192, hz2

set_option maxHeartbeats 1000000 in
/-- MIDDLE TILE (0 < k < 31). As the first tile, but the scratch row, found at s, ends at the pointwise minimum of s
    and the slab's column minima. -/
theorem runMiddle (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x256x1 .f32) (harg6 : arg6.IsWhole) (arg7 : Memref sig .tc .vmem S1x1x8192 .f32) (harg7 : arg7.IsWhole) (arg8 : Memref sig .tc .vmem S1x8192 .f32) (harg8 : arg8.IsWhole)
    (hc1 : ¬condFirst i) (hc2 : condLater i) (hc3 : ¬condLast i)
    (x0 : Vec F S1x256x3 .f32) (x1 : Vec F S1x3x8192 .f32) (x2 : Vec F S1x256x1 .f32) (x3 : Vec F S1x1x8192 .f32)
    (xi5 : Vec F S1x1x8192 .f32) (s : Vec F S1x8192 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xi5 ∗ owns (c : Thread nD τ) arg8 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay4 x0 x1 x2 x3)
                ∗ owns (c : Thread nD τ) arg7 fullShare xi5
                ∗ owns (c : Thread nD τ) arg8 fullShare (k0_pay1 (k0_pay5 x0 x1 x2 x3) s)) -∗ K ⟨⟩))
          ⊢ wp frame (wpE (defs₀ (F := F)) Variants.none c none) E (cc0__chamfer_kernel i arg2 harg2 arg3 harg3 arg4 harg4 arg5 harg5 arg6 harg6 arg7 harg7 arg8 harg8) K := by
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg7.eq_unread hf7; obtain rfl := harg8.eq_unread hf8
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr
      swap; · iexact H6
      ipureintro; close_piece S1x256x1, hz3
    isplitl [H7]
    · iexists _; isplitr; · ipureintro; exact harg7.read_unread _
      iexact H7
    iexists _; isplitr
    swap; · iexact H8
    ipureintro; close_piece S1x8192, hz2

set_option maxHeartbeats 1000000 in
/-- LAST TILE (k = 31). As a middle tile, and the second output's buffer, whatever it held, ends at the scratch row's
    new contents. -/
theorem runLast (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x256x1 .f32) (harg6 : arg6.IsWhole) (arg7 : Memref sig .tc .vmem S1x1x8192 .f32) (harg7 : arg7.IsWhole) (arg8 : Memref sig .tc .vmem S1x8192 .f32) (harg8 : arg8.IsWhole)
    (hc1 : ¬condFirst i) (hc2 : condLater i) (hc3 : condLast i)
    (x0 : Vec F S1x256x3 .f32) (x1 : Vec F S1x3x8192 .f32) (x2 : Vec F S1x256x1 .f32) (x3 : Vec F S1x1x8192 .f32)
    (s : Vec F S1x8192 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay4 x0 x1 x2 x3)
                ∗ owns (c : Thread nD τ) arg7 fullShare (k0_pay2 (k0_pay1 (k0_pay5 x0 x1 x2 x3) s))
                ∗ owns (c : Thread nD τ) arg8 fullShare (k0_pay1 (k0_pay5 x0 x1 x2 x3) s)) -∗ K ⟨⟩))
          ⊢ wp frame (wpE (defs₀ (F := F)) Variants.none c none) E (cc0__chamfer_kernel i arg2 harg2 arg3 harg3 arg4 harg4 arg5 harg5 arg6 harg6 arg7 harg7 arg8 harg8) K := by
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg8.eq_unread hf8
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr
      swap; · iexact H6
      ipureintro; close_piece S1x256x1, hz3
    isplitl [H7]
    · iexists _; isplitr
      swap; · iexact H7
      ipureintro
      close_piece S1x1x8192, hz3
    iexists _; isplitr
    swap; · iexact H8
    ipureintro; close_piece S1x8192, hz2

end Cert.Kernel.Body

end
-- ==== Proof.BodyK.lean ====
/-
  The frame of the kernel program, at any float instance, with every output named.

  Points are numbered batch-major: point t is tile t % 32 of batch t / 32. What the scratch row holds after point t is
  defined by recursion on t (`scAt`): the slab's column minima at a batch's first tile, and otherwise the pointwise
  minimum of those with what the point before left. The proof data give each input window its block, the first output
  window the slab's row minima, and the second output window the scratch row (it is written, and written back, only
  at a batch's last tile; elsewhere the window is idle and its buffer is handed back as found). The region's invariant
  is the class's before the first point and afterwards holds the scratch row at `scAt` of the point before. The body
  obligation is the three cases' triples, chosen by the point's tile number; the run is the library's frame run with a
  tracking invariant around a region that host operations follow.
-/
import proofs.«135267_j4750233829481_1_alg».proof.Proof.CasesK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

/-- Each window's current staging memref at point `t`, as the pipeline passes it, and its wholeness. -/
abbrev ms0 (t : Fin cfg0.N) : Memref sig .tc .vmem S1x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x8192 .f32 := win0_5.stage (cfg0.slots t 5)
abbrev hs5 (t : Fin cfg0.N) : (ms5 t).IsWhole := hstage0_5 ((cfg0.slots t 5).cast nbuf0_5)
/-- The scratch row: a whole scoped buffer of the kernel's own. -/
abbrev scM : Memref sig .tc .vmem S1x8192 .f32 := Memref.whole cc0_scratch0

/-- The class's invariant with the scratch row as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The second output's window is idle, and not written back, at every tile but a batch's last. -/
theorem idle5 : ∀ t : Fin cfg0.N, ¬condLast (grid0.coords t) → cfg0.idle 5 (grid0.coords t) = true := by decide +kernel
theorem noFlush5 : ∀ t : Fin cfg0.N, ¬condLast (grid0.coords t) → (cfg0.win 5).flush t = false := by decide +kernel
theorem live5 : ∀ t : Fin cfg0.N, condLast (grid0.coords t) → cfg0.idle 5 (grid0.coords t) = false := by decide +kernel

/-! ## What a point reads and what it leaves -/

/-- The four input blocks of point `t`, at their literal types: 256 rows of the first point set, the whole second
    point set (transposed), the rows' squared norms as a column, the second set's squared norms as a row. -/
abbrev rowsBlk (c : Dev nD) (t : Fin cfg0.N) : Vec F S1x256x3 .f32 := iblk m c 0 t
abbrev colsBlk (c : Dev nD) (t : Fin cfg0.N) : Vec F S1x3x8192 .f32 := iblk m c 1 t
abbrev rowSqBlk (c : Dev nD) (t : Fin cfg0.N) : Vec F S1x256x1 .f32 := iblk m c 2 t
abbrev colSqBlk (c : Dev nD) (t : Fin cfg0.N) : Vec F S1x1x8192 .f32 := iblk m c 3 t

/-- The slab's row minima at point `t` (what the first output's block receives). -/
def rowMinAt (c : Dev nD) (t : Fin cfg0.N) : Vec F S1x256x1 .f32 :=
  k0_pay4 (rowsBlk m c t) (colsBlk m c t) (rowSqBlk m c t) (colSqBlk m c t)
/-- The slab's column minima at point `t`. -/
def colMinAt (c : Dev nD) (t : Fin cfg0.N) : Vec F S1x8192 .f32 :=
  k0_pay5 (rowsBlk m c t) (colsBlk m c t) (rowSqBlk m c t) (colSqBlk m c t)
/-- The same as the body stores them at a batch's first tile. -/
def colMinFirstAt (c : Dev nD) (t : Fin cfg0.N) : Vec F S1x8192 .f32 :=
  k0_pay6 (rowsBlk m c t) (colsBlk m c t) (rowSqBlk m c t) (colSqBlk m c t)

/-- THE ACCUMULATION. What the scratch row holds after the body at position `n`: at a batch's first tile the
    slab's column minima; at a later tile the minimum of those with what position `n - 1` left. -/
def scAt (c : Dev nD) : (n : ℕ) → n < cfg0.N → Vec F S1x8192 .f32
  | 0, hn => colMinFirstAt m c ⟨0, hn⟩
  | n + 1, hn =>
    if (n + 1) % 32 = 0 then colMinFirstAt m c ⟨n + 1, hn⟩
    else k0_pay1 (colMinAt m c ⟨n + 1, hn⟩) (scAt c n (Nat.lt_of_succ_lt hn))

theorem scAt_first (c : Dev nD) (t : Fin cfg0.N) (h : t.val % 32 = 0) :
    scAt m c t.val t.isLt = colMinFirstAt m c t := by
  obtain ⟨n, hn⟩ := t
  cases n with
  | zero => rfl
  | succ n => exact if_pos h

theorem scAt_later (c : Dev nD) (t : Fin cfg0.N) (h : ¬t.val % 32 = 0) :
    scAt m c t.val t.isLt
      = k0_pay1 (colMinAt m c t) (scAt m c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point the class's (the scratch row at anything);
    afterwards the scratch row at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (scAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scAt m c (n - 1) (by omega))) ∗ (∃ r, prngReg c r)) := by
  cases n with
  | zero => exact absurd rfl hz
  | succ n => rfl

/-! ## The pipeline's proof data -/

/-- The proof data of the one pipeline on core `c`: the arrays as the region finds them; after the body at point `t`
    each input's buffer at its block, the first output's at the slab's row minima, the second output's at the scratch
    row (consulted only at a batch's last tile); the tracking invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowMinAt m c t
    | ⟨5, _⟩ => k0_pay2 (scAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowMinAt m c t := by dsimp only [dats]
theorem after0_5 (c : Dev nD) (t : Fin cfg0.N) : (dats m 0 c).after 5 t = k0_pay2 (scAt m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The live windows' posts are plain: the buffer at `after`. -/
theorem leaves0 (c : Dev nD) (t : Fin cfg0.N) : (dats m 0 c).leavesExact 0 t = owns (c : Thread nD τ) (ms0 t) fullShare (iblk m c 0 t) := by
  unfold Dat.leavesExact; rw [live0 t, after0_0]
theorem leaves1 (c : Dev nD) (t : Fin cfg0.N) : (dats m 0 c).leavesExact 1 t = owns (c : Thread nD τ) (ms1 t) fullShare (iblk m c 1 t) := by
  unfold Dat.leavesExact; rw [live1 t, after0_1]
theorem leaves2 (c : Dev nD) (t : Fin cfg0.N) : (dats m 0 c).leavesExact 2 t = owns (c : Thread nD τ) (ms2 t) fullShare (iblk m c 2 t) := by
  unfold Dat.leavesExact; rw [live2 t, after0_2]
theorem leaves3 (c : Dev nD) (t : Fin cfg0.N) : (dats m 0 c).leavesExact 3 t = owns (c : Thread nD τ) (ms3 t) fullShare (iblk m c 3 t) := by
  unfold Dat.leavesExact; rw [live3 t, after0_3]
theorem leaves4 (c : Dev nD) (t : Fin cfg0.N) : (dats m 0 c).leavesExact 4 t = owns (c : Thread nD τ) (ms4 t) fullShare (rowMinAt m c t) := by
  unfold Dat.leavesExact; rw [live4 t, after0_4]
theorem leaves5_last (c : Dev nD) (t : Fin cfg0.N) (h : condLast (grid0.coords t)) :
    (dats m 0 c).leavesExact 5 t = owns (c : Thread nD τ) (ms5 t) fullShare (k0_pay2 (scAt m c t.val t.isLt)) := by
  unfold Dat.leavesExact; rw [live5 t h, after0_5]

set_option maxHeartbeats 4800000 in
/-- The body at any point. The inputs' memrefs hold their blocks; the point's tile number says which case it is in; the
    invariant hands the body the scratch row at what the point before left (at anything at the very first point) and
    takes it back at this point's contents; the second output's buffer is handed back as found except at a batch's
    last tile, where it receives the scratch row. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4]
  have hN : t.val < 64 := lt_of_lt_of_eq t.isLt (show cfg0.N = 64 from N_0)
  by_cases hF : t.val % 32 = 0
  · -- a batch's first tile
    have hc1 : condFirst (grid0.coords t) := (hcondFirst t).mpr hF
    have hc2 : ¬condLater (grid0.coords t) := fun h => (hcondLater t).mp h hF
    have hc3 : ¬condLast (grid0.coords t) := fun h => by have := (hcondLast t).mp h; omega
    rw [Dat.leavesExact_idle (dats m 0 c) 5 t (idle5 t hc3) (noFlush5 t hc3)]
    rw [scAt_first m c t hF]
    unfold colMinFirstAt rowMinAt
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩⟩
      iapply (runFirst c (grid0.coords t) (ms0 t) (hs0 t) (ms1 t) (hs1 t) (ms2 t) (hs2 t) (ms3 t) (hs3 t) (ms4 t) (hs4 t) (ms5 t) (hs5 t) scM (Memref.isWhole_whole _) hc1 hc2 hc3 (rowsBlk m c t) (colsBlk m c t) (rowSqBlk m c t) (colSqBlk m c t) _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (runFirst c (grid0.coords t) (ms0 t) (hs0 t) (ms1 t) (hs1 t) (ms2 t) (hs2 t) (ms3 t) (hs3 t) (ms4 t) (hs4 t) (ms5 t) (hs5 t) scM (Memref.isWhole_whole _) hc1 hc2 hc3 (rowsBlk m c t) (colsBlk m c t) (rowSqBlk m c t) (colSqBlk m c t) _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc1 : ¬condFirst (grid0.coords t) := fun h => hF ((hcondFirst t).mp h)
    have hc2 : condLater (grid0.coords t) := (hcondLater t).mpr hF
    have hz : t.val ≠ 0 := fun h => hF (by rw [h])
    rw [scAt_later m c t hF]
    unfold colMinAt rowMinAt
    rw [PhiS_castSucc m c t, PhiS_pos m c _ _ hz]
    by_cases hL : t.val % 32 = 31
    · -- a batch's last tile
      have hc3 : condLast (grid0.coords t) := (hcondLast t).mpr hL
      rw [leaves5_last m c t hc3, scAt_later m c t hF]
      unfold colMinAt
      iintro ⟨⟨HS, Hg⟩, Ho, ⟨%d0, H0⟩, ⟨%d1, H1⟩, ⟨%d2, H2⟩, ⟨%d3, H3⟩, ⟨%d4, H4⟩, ⟨%d5, H5⟩⟩
      iapply (runLast c (grid0.coords t) (ms0 t) (hs0 t) (ms1 t) (hs1 t) (ms2 t) (hs2 t) (ms3 t) (hs3 t) (ms4 t) (hs4 t) (ms5 t) (hs5 t) scM (Memref.isWhole_whole _) hc1 hc2 hc3 (rowsBlk m c t) (colsBlk m c t) (rowSqBlk m c t) (colSqBlk m c t) _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle tile
      have hc3 : ¬condLast (grid0.coords t) := fun h => hL ((hcondLast t).mp h)
      rw [Dat.leavesExact_idle (dats m 0 c) 5 t (idle5 t hc3) (noFlush5 t hc3)]
      iintro ⟨⟨HS, Hg⟩, Ho, ⟨%d0, H0⟩, ⟨%d1, H1⟩, ⟨%d2, H2⟩, ⟨%d3, H3⟩, ⟨%d4, H4⟩, ⟨%d5, H5⟩⟩
      iapply (runMiddle c (grid0.coords t) (ms0 t) (hs0 t) (ms1 t) (hs1 t) (ms2 t) (hs2 t) (ms3 t) (hs3 t) (ms4 t) (hs4 t) (ms5 t) (hs5 t) scM (Memref.isWhole_whole _) hc1 hc2 hc3 (rowsBlk m c t) (colsBlk m c t) (rowSqBlk m c t) (colSqBlk m c t) _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch row's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and every final state has each array of the pipeline at
    what the library computes from the proof data and every other unscoped buffer as the host operations after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Cases.lean ====
/-
  The kernel body, one grid point at a time, at any float instance.

  A grid point is (b, k): batch b, row tile k of 256 rows of the first point set. The body forms the 256 x 8192 slab of
  distances between the tile's rows and every point of the second set, stores the slab's row minima into its first
  output block, and folds the slab's column minima into a scratch row that lives across the 32 tiles of a batch: at
  k = 0 the scratch is overwritten with the column minima, at k > 0 it becomes the pointwise minimum of what it held
  and the column minima, and at k = 31 the scratch is copied into the second output block. So there are three control
  cases - first tile, middle tile, last tile - and this module proves the body's triple in each, stating what every
  buffer holds afterwards through the skeleton's payload names.
-/
import proofs.«135267_j4750233829481_1_alg».proof.Proof.Gen.KernelIdeal.Frame
import proofs.«135267_j4750233829481_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions, as the body computes them from the tile coordinate -/

/-- The tile is the first of its batch (k = 0): the scratch row is overwritten. -/
abbrev condFirst (i : grid0.Coords) : Prop := (Scalar.cmpi .ne (Scalar.extui (Scalar.cmpi .eq (BitVec.ofNat 32 (i 1).val) 0#32)) 0#32) = 1#1
/-- The tile is not the first of its batch (k > 0): the scratch row is folded into. -/
abbrev condLater (i : grid0.Coords) : Prop := (Scalar.cmpi .ne (Scalar.extui (Scalar.cmpi .ne (BitVec.ofNat 32 (i 1).val) 0#32)) 0#32) = 1#1
/-- The tile is the last of its batch (k = 31): the scratch row is copied out. -/
abbrev condLast (i : grid0.Coords) : Prop := k0_cond3 i = 1#1

/-- Points are numbered batch-major, 32 tiles a batch: the conditions in closed form over the 64 points. -/
theorem hcondFirst : ∀ t : Fin cfg0.N, condFirst (grid0.coords t) ↔ t.val % 32 = 0 :=
  (by decide +kernel : ∀ t : Fin grid0.N, condFirst (grid0.coords t) ↔ t.val % 32 = 0)
theorem hcondLater : ∀ t : Fin cfg0.N, condLater (grid0.coords t) ↔ ¬ t.val % 32 = 0 :=
  (by decide +kernel : ∀ t : Fin grid0.N, condLater (grid0.coords t) ↔ ¬ t.val % 32 = 0)
theorem hcondLast : ∀ t : Fin cfg0.N, condLast (grid0.coords t) ↔ t.val % 32 = 31 :=
  (by decide +kernel : ∀ t : Fin grid0.N, condLast (grid0.coords t) ↔ t.val % 32 = 31)

/-- The all-zero offsets of a whole-block load or store, at ranks three and two. -/
theorem hz3 : (![0, 0, 0] : Fin 3 → ℕ) = fun _ => 0 := by funext a; fin_cases a <;> rfl
theorem hz2 : (![0, 0] : Fin 2 → ℕ) = fun _ => 0 := by funext a; fin_cases a <;> rfl

/-- A buffer into which ONE whole-block store was made reads as the stored value, whatever it held before. Stated over
    an abstract shape, so that no extent is ever unfolded. -/
theorem read_write_whole {sig' : RefSig} {κ : Kind} {sp : Space} {S : Shape} {e : EltTy} {Val : EltTy → Type} [∀ e, Nonempty (Val e)]
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- The closing step of each triple: the buffer holds one whole-block store, so it reads as the stored value; and the
    value's operands - blocks loaded whole from buffers that read as x, or the scratch row read back after its store -
    are x, respectively the stored row. -/
local macro "close_piece" S:term "," hz:ident : tactic => `(tactic| (
  (try sl_unfold_words)
  (try dsimp only)
  refine (read_write_whole (S := $S) _ _ $hz _ _).trans ?_
  (try simp only [View.readAt_eq_ld, Memref.IsWhole.read_unread, View.readCov_unit_zero (S := S1x8192) _ hz2, View.ld_unit_zero (S := S1x256x3) hz3, View.ld_unit_zero (S := S1x3x8192) hz3, View.ld_unit_zero (S := S1x256x1) hz3, View.ld_unit_zero (S := S1x1x8192) hz3, View.ld_unit_zero (S := S1x8192) hz2])))

/-! ## The body's triple, case by case -/

set_option maxHeartbeats 1000000 in
/-- FIRST TILE (k = 0). The inputs' buffers are left as found; the first output's buffer ends at the slab's row minima;
    the second output's buffer is not touched; the scratch row, whatever it held, ends at the slab's column minima. -/
theorem runFirst (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x256x1 .f32) (harg6 : arg6.IsWhole) (arg7 : Memref sig .tc .vmem S1x1x8192 .f32) (harg7 : arg7.IsWhole) (arg8 : Memref sig .tc .vmem S1x8192 .f32) (harg8 : arg8.IsWhole)
    (hc1 : condFirst i) (hc2 : ¬condLater i) (hc3 : ¬condLast i)
    (x0 : Vec F S1x256x3 .f32) (x1 : Vec F S1x3x8192 .f32) (x2 : Vec F S1x256x1 .f32) (x3 : Vec F S1x1x8192 .f32)
    (xi5 : Vec F S1x1x8192 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay4 x0 x1 x2 x3)
                ∗ owns (c : Thread nD τ) arg7 fullShare xi5
                ∗ owns (c : Thread nD τ) arg8 fullShare (k0_pay6 x0 x1 x2 x3)) -∗ K ⟨⟩))
          ⊢ wp frame (wpE (defs₀ (F := F)) Variants.none c none) E (cc0__chamfer_kernel i arg2 harg2 arg3 harg3 arg4 harg4 arg5 harg5 arg6 harg6 arg7 harg7 arg8 harg8) K := by
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg7.eq_unread hf7
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr
      swap; · iexact H6
      ipureintro; close_piece S1x256x1, hz3
    isplitl [H7]
    · iexists _; isplitr; · ipureintro; exact harg7.read_unread _
      iexact H7
    iexists _; isplitr
    swap; · iexact H8
    ipureintro; close_piece S1x8192, hz2

set_option maxHeartbeats 1000000 in
/-- MIDDLE TILE (0 < k < 31). As the first tile, but the scratch row, found at s, ends at the pointwise minimum of s
    and the slab's column minima. -/
theorem runMiddle (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x256x1 .f32) (harg6 : arg6.IsWhole) (arg7 : Memref sig .tc .vmem S1x1x8192 .f32) (harg7 : arg7.IsWhole) (arg8 : Memref sig .tc .vmem S1x8192 .f32) (harg8 : arg8.IsWhole)
    (hc1 : ¬condFirst i) (hc2 : condLater i) (hc3 : ¬condLast i)
    (x0 : Vec F S1x256x3 .f32) (x1 : Vec F S1x3x8192 .f32) (x2 : Vec F S1x256x1 .f32) (x3 : Vec F S1x1x8192 .f32)
    (xi5 : Vec F S1x1x8192 .f32) (s : Vec F S1x8192 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xi5 ∗ owns (c : Thread nD τ) arg8 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay4 x0 x1 x2 x3)
                ∗ owns (c : Thread nD τ) arg7 fullShare xi5
                ∗ owns (c : Thread nD τ) arg8 fullShare (k0_pay1 (k0_pay5 x0 x1 x2 x3) s)) -∗ K ⟨⟩))
          ⊢ wp frame (wpE (defs₀ (F := F)) Variants.none c none) E (cc0__chamfer_kernel i arg2 harg2 arg3 harg3 arg4 harg4 arg5 harg5 arg6 harg6 arg7 harg7 arg8 harg8) K := by
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg7.eq_unread hf7; obtain rfl := harg8.eq_unread hf8
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr
      swap; · iexact H6
      ipureintro; close_piece S1x256x1, hz3
    isplitl [H7]
    · iexists _; isplitr; · ipureintro; exact harg7.read_unread _
      iexact H7
    iexists _; isplitr
    swap; · iexact H8
    ipureintro; close_piece S1x8192, hz2

set_option maxHeartbeats 1000000 in
/-- LAST TILE (k = 31). As a middle tile, and the second output's buffer, whatever it held, ends at the scratch row's
    new contents. -/
theorem runLast (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x256x1 .f32) (harg6 : arg6.IsWhole) (arg7 : Memref sig .tc .vmem S1x1x8192 .f32) (harg7 : arg7.IsWhole) (arg8 : Memref sig .tc .vmem S1x8192 .f32) (harg8 : arg8.IsWhole)
    (hc1 : ¬condFirst i) (hc2 : condLater i) (hc3 : condLast i)
    (x0 : Vec F S1x256x3 .f32) (x1 : Vec F S1x3x8192 .f32) (x2 : Vec F S1x256x1 .f32) (x3 : Vec F S1x1x8192 .f32)
    (s : Vec F S1x8192 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay4 x0 x1 x2 x3)
                ∗ owns (c : Thread nD τ) arg7 fullShare (k0_pay2 (k0_pay1 (k0_pay5 x0 x1 x2 x3) s))
                ∗ owns (c : Thread nD τ) arg8 fullShare (k0_pay1 (k0_pay5 x0 x1 x2 x3) s)) -∗ K ⟨⟩))
          ⊢ wp frame (wpE (defs₀ (F := F)) Variants.none c none) E (cc0__chamfer_kernel i arg2 harg2 arg3 harg3 arg4 harg4 arg5 harg5 arg6 harg6 arg7 harg7 arg8 harg8) K := by
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg8.eq_unread hf8
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr
      swap; · iexact H6
      ipureintro; close_piece S1x256x1, hz3
    isplitl [H7]
    · iexists _; isplitr
      swap; · iexact H7
      ipureintro
      close_piece S1x1x8192, hz3
    iexists _; isplitr
    swap; · iexact H8
    ipureintro; close_piece S1x8192, hz2

end Cert.KernelIdeal.Body

end
-- ==== Proof.Body.lean ====
/-
  The frame of the kernel program, at any float instance, with every output named.

  Points are numbered batch-major: point t is tile t % 32 of batch t / 32. What the scratch row holds after point t is
  defined by recursion on t (`scAt`): the slab's column minima at a batch's first tile, and otherwise the pointwise
  minimum of those with what the point before left. The proof data give each input window its block, the first output
  window the slab's row minima, and the second output window the scratch row (it is written, and written back, only
  at a batch's last tile; elsewhere the window is idle and its buffer is handed back as found). The region's invariant
  is the class's before the first point and afterwards holds the scratch row at `scAt` of the point before. The body
  obligation is the three cases' triples, chosen by the point's tile number; the run is the library's frame run with a
  tracking invariant around a region that host operations follow.
-/
import proofs.«135267_j4750233829481_1_alg».proof.Proof.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

/-- Each window's current staging memref at point `t`, as the pipeline passes it, and its wholeness. -/
abbrev ms0 (t : Fin cfg0.N) : Memref sig .tc .vmem S1x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x8192 .f32 := win0_5.stage (cfg0.slots t 5)
abbrev hs5 (t : Fin cfg0.N) : (ms5 t).IsWhole := hstage0_5 ((cfg0.slots t 5).cast nbuf0_5)
/-- The scratch row: a whole scoped buffer of the kernel's own. -/
abbrev scM : Memref sig .tc .vmem S1x8192 .f32 := Memref.whole cc0_scratch0

/-- The class's invariant with the scratch row as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The second output's window is idle, and not written back, at every tile but a batch's last. -/
theorem idle5 : ∀ t : Fin cfg0.N, ¬condLast (grid0.coords t) → cfg0.idle 5 (grid0.coords t) = true := by decide +kernel
theorem noFlush5 : ∀ t : Fin cfg0.N, ¬condLast (grid0.coords t) → (cfg0.win 5).flush t = false := by decide +kernel
theorem live5 : ∀ t : Fin cfg0.N, condLast (grid0.coords t) → cfg0.idle 5 (grid0.coords t) = false := by decide +kernel

/-! ## What a point reads and what it leaves -/

/-- The four input blocks of point `t`, at their literal types: 256 rows of the first point set, the whole second
    point set (transposed), the rows' squared norms as a column, the second set's squared norms as a row. -/
abbrev rowsBlk (c : Dev nD) (t : Fin cfg0.N) : Vec F S1x256x3 .f32 := iblk m c 0 t
abbrev colsBlk (c : Dev nD) (t : Fin cfg0.N) : Vec F S1x3x8192 .f32 := iblk m c 1 t
abbrev rowSqBlk (c : Dev nD) (t : Fin cfg0.N) : Vec F S1x256x1 .f32 := iblk m c 2 t
abbrev colSqBlk (c : Dev nD) (t : Fin cfg0.N) : Vec F S1x1x8192 .f32 := iblk m c 3 t

/-- The slab's row minima at point `t` (what the first output's block receives). -/
def rowMinAt (c : Dev nD) (t : Fin cfg0.N) : Vec F S1x256x1 .f32 :=
  k0_pay4 (rowsBlk m c t) (colsBlk m c t) (rowSqBlk m c t) (colSqBlk m c t)
/-- The slab's column minima at point `t`. -/
def colMinAt (c : Dev nD) (t : Fin cfg0.N) : Vec F S1x8192 .f32 :=
  k0_pay5 (rowsBlk m c t) (colsBlk m c t) (rowSqBlk m c t) (colSqBlk m c t)
/-- The same as the body stores them at a batch's first tile. -/
def colMinFirstAt (c : Dev nD) (t : Fin cfg0.N) : Vec F S1x8192 .f32 :=
  k0_pay6 (rowsBlk m c t) (colsBlk m c t) (rowSqBlk m c t) (colSqBlk m c t)

/-- THE ACCUMULATION. What the scratch row holds after the body at position `n`: at a batch's first tile the
    slab's column minima; at a later tile the minimum of those with what position `n - 1` left. -/
def scAt (c : Dev nD) : (n : ℕ) → n < cfg0.N → Vec F S1x8192 .f32
  | 0, hn => colMinFirstAt m c ⟨0, hn⟩
  | n + 1, hn =>
    if (n + 1) % 32 = 0 then colMinFirstAt m c ⟨n + 1, hn⟩
    else k0_pay1 (colMinAt m c ⟨n + 1, hn⟩) (scAt c n (Nat.lt_of_succ_lt hn))

theorem scAt_first (c : Dev nD) (t : Fin cfg0.N) (h : t.val % 32 = 0) :
    scAt m c t.val t.isLt = colMinFirstAt m c t := by
  obtain ⟨n, hn⟩ := t
  cases n with
  | zero => rfl
  | succ n => exact if_pos h

theorem scAt_later (c : Dev nD) (t : Fin cfg0.N) (h : ¬t.val % 32 = 0) :
    scAt m c t.val t.isLt
      = k0_pay1 (colMinAt m c t) (scAt m c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point the class's (the scratch row at anything);
    afterwards the scratch row at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (scAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scAt m c (n - 1) (by omega))) ∗ (∃ r, prngReg c r)) := by
  cases n with
  | zero => exact absurd rfl hz
  | succ n => rfl

/-! ## The pipeline's proof data -/

/-- The proof data of the one pipeline on core `c`: the arrays as the region finds them; after the body at point `t`
    each input's buffer at its block, the first output's at the slab's row minima, the second output's at the scratch
    row (consulted only at a batch's last tile); the tracking invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowMinAt m c t
    | ⟨5, _⟩ => k0_pay2 (scAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowMinAt m c t := by dsimp only [dats]
theorem after0_5 (c : Dev nD) (t : Fin cfg0.N) : (dats m 0 c).after 5 t = k0_pay2 (scAt m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The live windows' posts are plain: the buffer at `after`. -/
theorem leaves0 (c : Dev nD) (t : Fin cfg0.N) : (dats m 0 c).leavesExact 0 t = owns (c : Thread nD τ) (ms0 t) fullShare (iblk m c 0 t) := by
  unfold Dat.leavesExact; rw [live0 t, after0_0]
theorem leaves1 (c : Dev nD) (t : Fin cfg0.N) : (dats m 0 c).leavesExact 1 t = owns (c : Thread nD τ) (ms1 t) fullShare (iblk m c 1 t) := by
  unfold Dat.leavesExact; rw [live1 t, after0_1]
theorem leaves2 (c : Dev nD) (t : Fin cfg0.N) : (dats m 0 c).leavesExact 2 t = owns (c : Thread nD τ) (ms2 t) fullShare (iblk m c 2 t) := by
  unfold Dat.leavesExact; rw [live2 t, after0_2]
theorem leaves3 (c : Dev nD) (t : Fin cfg0.N) : (dats m 0 c).leavesExact 3 t = owns (c : Thread nD τ) (ms3 t) fullShare (iblk m c 3 t) := by
  unfold Dat.leavesExact; rw [live3 t, after0_3]
theorem leaves4 (c : Dev nD) (t : Fin cfg0.N) : (dats m 0 c).leavesExact 4 t = owns (c : Thread nD τ) (ms4 t) fullShare (rowMinAt m c t) := by
  unfold Dat.leavesExact; rw [live4 t, after0_4]
theorem leaves5_last (c : Dev nD) (t : Fin cfg0.N) (h : condLast (grid0.coords t)) :
    (dats m 0 c).leavesExact 5 t = owns (c : Thread nD τ) (ms5 t) fullShare (k0_pay2 (scAt m c t.val t.isLt)) := by
  unfold Dat.leavesExact; rw [live5 t h, after0_5]

set_option maxHeartbeats 4800000 in
/-- The body at any point. The inputs' memrefs hold their blocks; the point's tile number says which case it is in; the
    invariant hands the body the scratch row at what the point before left (at anything at the very first point) and
    takes it back at this point's contents; the second output's buffer is handed back as found except at a batch's
    last tile, where it receives the scratch row. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4]
  have hN : t.val < 64 := lt_of_lt_of_eq t.isLt (show cfg0.N = 64 from N_0)
  by_cases hF : t.val % 32 = 0
  · -- a batch's first tile
    have hc1 : condFirst (grid0.coords t) := (hcondFirst t).mpr hF
    have hc2 : ¬condLater (grid0.coords t) := fun h => (hcondLater t).mp h hF
    have hc3 : ¬condLast (grid0.coords t) := fun h => by have := (hcondLast t).mp h; omega
    rw [Dat.leavesExact_idle (dats m 0 c) 5 t (idle5 t hc3) (noFlush5 t hc3)]
    rw [scAt_first m c t hF]
    unfold colMinFirstAt rowMinAt
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩⟩
      iapply (runFirst c (grid0.coords t) (ms0 t) (hs0 t) (ms1 t) (hs1 t) (ms2 t) (hs2 t) (ms3 t) (hs3 t) (ms4 t) (hs4 t) (ms5 t) (hs5 t) scM (Memref.isWhole_whole _) hc1 hc2 hc3 (rowsBlk m c t) (colsBlk m c t) (rowSqBlk m c t) (colSqBlk m c t) _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (runFirst c (grid0.coords t) (ms0 t) (hs0 t) (ms1 t) (hs1 t) (ms2 t) (hs2 t) (ms3 t) (hs3 t) (ms4 t) (hs4 t) (ms5 t) (hs5 t) scM (Memref.isWhole_whole _) hc1 hc2 hc3 (rowsBlk m c t) (colsBlk m c t) (rowSqBlk m c t) (colSqBlk m c t) _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc1 : ¬condFirst (grid0.coords t) := fun h => hF ((hcondFirst t).mp h)
    have hc2 : condLater (grid0.coords t) := (hcondLater t).mpr hF
    have hz : t.val ≠ 0 := fun h => hF (by rw [h])
    rw [scAt_later m c t hF]
    unfold colMinAt rowMinAt
    rw [PhiS_castSucc m c t, PhiS_pos m c _ _ hz]
    by_cases hL : t.val % 32 = 31
    · -- a batch's last tile
      have hc3 : condLast (grid0.coords t) := (hcondLast t).mpr hL
      rw [leaves5_last m c t hc3, scAt_later m c t hF]
      unfold colMinAt
      iintro ⟨⟨HS, Hg⟩, Ho, ⟨%d0, H0⟩, ⟨%d1, H1⟩, ⟨%d2, H2⟩, ⟨%d3, H3⟩, ⟨%d4, H4⟩, ⟨%d5, H5⟩⟩
      iapply (runLast c (grid0.coords t) (ms0 t) (hs0 t) (ms1 t) (hs1 t) (ms2 t) (hs2 t) (ms3 t) (hs3 t) (ms4 t) (hs4 t) (ms5 t) (hs5 t) scM (Memref.isWhole_whole _) hc1 hc2 hc3 (rowsBlk m c t) (colsBlk m c t) (rowSqBlk m c t) (colSqBlk m c t) _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle tile
      have hc3 : ¬condLast (grid0.coords t) := fun h => hL ((hcondLast t).mp h)
      rw [Dat.leavesExact_idle (dats m 0 c) 5 t (idle5 t hc3) (noFlush5 t hc3)]
      iintro ⟨⟨HS, Hg⟩, Ho, ⟨%d0, H0⟩, ⟨%d1, H1⟩, ⟨%d2, H2⟩, ⟨%d3, H3⟩, ⟨%d4, H4⟩, ⟨%d5, H5⟩⟩
      iapply (runMiddle c (grid0.coords t) (ms0 t) (hs0 t) (ms1 t) (hs1 t) (ms2 t) (hs2 t) (ms3 t) (hs3 t) (ms4 t) (hs4 t) (ms5 t) (hs5 t) scM (Memref.isWhole_whole _) hc1 hc2 hc3 (rowsBlk m c t) (colsBlk m c t) (rowSqBlk m c t) (colSqBlk m c t) _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch row's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and every final state has each array of the pipeline at
    what the library computes from the proof data and every other unscoped buffer as the host operations after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.LibFoldMin.lean ====
/-
  Folds of `min` over initial segments of `Fin N`, in a linear order.

  `below top f n` is the minimum of `top` and the entries `f i` with `i < n`. A segment of length `n + m` splits into the
  segment of length `n` and the block of `m` entries after it (`below_add`); the first block alone is the fold over
  `Fin m` (`below_first`); and the whole range is the fold over `Fin N` (`below_all`). Each is proved by comparing lower
  bounds: `c` is below a fold of `min` exactly when it is below the initial value and below every entry.
-/
import Mathlib.Data.Finset.Fold
import Mathlib.Data.Fintype.Basic
import Mathlib.Order.Basic

namespace FoldMinSeg

variable {α : Type*} [LinearOrder α]

/-- The fold of `min` from `top` over the entries of `f` at positions below `n`. -/
def below {N : ℕ} (top : α) (f : Fin N → α) (n : ℕ) : α :=
  (Finset.univ.filter fun i : Fin N => i.val < n).fold min top f

/-- Its lower bounds: those of `top` that are below every entry at a position under `n`. -/
theorem le_below {N : ℕ} (top : α) (f : Fin N → α) (n : ℕ) (c : α) :
    c ≤ below top f n ↔ c ≤ top ∧ ∀ i : Fin N, i.val < n → c ≤ f i := by
  unfold below
  rw [Finset.le_fold_min]
  constructor
  · rintro ⟨h0, h1⟩
    exact ⟨h0, fun i hi => h1 i (Finset.mem_filter.mpr ⟨Finset.mem_univ _, hi⟩)⟩
  · rintro ⟨h0, h1⟩
    exact ⟨h0, fun i hi => h1 i (Finset.mem_filter.mp hi).2⟩

/-- Over the whole range it is the fold over every index. -/
theorem below_all {N : ℕ} (top : α) (f : Fin N → α) : below top f N = Finset.univ.fold min top f := by
  refine eq_of_forall_le_iff fun c => ?_
  rw [le_below, Finset.le_fold_min]
  exact ⟨fun ⟨h0, h1⟩ => ⟨h0, fun i _ => h1 i i.isLt⟩, fun ⟨h0, h1⟩ => ⟨h0, fun i _ => h1 i (Finset.mem_univ _)⟩⟩

/-- A segment of length `n + m` is the segment of length `n` together with the `m` entries after it. -/
theorem below_add {N : ℕ} (top : α) (f : Fin N → α) (n m : ℕ) (h : n + m ≤ N) :
    below top f (n + m)
      = min (below top f n) (Finset.univ.fold min top fun r : Fin m => f ⟨n + r.val, by omega⟩) := by
  refine eq_of_forall_le_iff fun c => ?_
  rw [le_min_iff, le_below, le_below, Finset.le_fold_min]
  constructor
  · rintro ⟨h0, h1⟩
    exact ⟨⟨h0, fun i hi => h1 i (by omega)⟩, h0, fun r _ => h1 _ (by show n + r.val < n + m; omega)⟩
  · rintro ⟨⟨h0, h1⟩, -, h2⟩
    refine ⟨h0, fun i hi => ?_⟩
    by_cases hin : i.val < n
    · exact h1 i hin
    · have e : i = ⟨n + (⟨i.val - n, by omega⟩ : Fin m).val, by show n + (i.val - n) < N; omega⟩ :=
        Fin.ext (by show i.val = n + (i.val - n); omega)
      rw [e]
      exact h2 ⟨i.val - n, by omega⟩ (Finset.mem_univ _)

/-- The first block alone. -/
theorem below_first {N : ℕ} (top : α) (f : Fin N → α) (m : ℕ) (h : m ≤ N) :
    below top f m = Finset.univ.fold min top fun r : Fin m => f ⟨r.val, by omega⟩ := by
  refine eq_of_forall_le_iff fun c => ?_
  rw [le_below, Finset.le_fold_min]
  constructor
  · rintro ⟨h0, h1⟩
    exact ⟨h0, fun r _ => h1 _ r.isLt⟩
  · rintro ⟨h0, h2⟩
    exact ⟨h0, fun i hi => h2 ⟨i.val, hi⟩ (Finset.mem_univ _)⟩

end FoldMinSeg
-- ==== Proof.Spec.lean ====
/-
  What both programs compute, as functions of four arrays, index by index, on the extended reals.

  The arrays are two point sets of 8192 points in three coordinates for each of two batches (`rows`, `cols`) and their
  squared norms laid out as a column and as a row (`rowSq`, `colSq`). The distance from point i of the first set to
  point j of the second is the square root of the clamped expansion |a|^2 + |b|^2 - 2 a.b; `rowMin` is its minimum
  over j and `colMin` its minimum over i, each taken as a fold of `min` from the largest float pattern.
  The three float constants are kept as the patterns both programs print; nothing here evaluates them.
-/
import Idealize.ShloMosaic.PureOps.Ideal
import Idealize.ShloMosaic.Lib.ValueIdx
import proofs.«135267_j4750233829481_1_alg».proof.Proof.LibFoldMin

noncomputable section

namespace Cert.Chamfer

open Idealize.ShloMosaic Idealize.ShloMosaic.ValueIdx
open scoped BigOperators

/-- The literal shapes. -/
abbrev P3 : Shape := ⟨3, ![2, 8192, 3]⟩
abbrev Col : Shape := ⟨3, ![2, 8192, 1]⟩
abbrev Row : Shape := ⟨3, ![2, 1, 8192]⟩
abbrev Flat : Shape := ⟨2, ![2, 8192]⟩

/-- The constants, as the float patterns the programs print: 2, 0 and the initial value of the minima. -/
abbrev two : EReal := Ideal.ofBits .f32 0x40000000#32
abbrev zero : EReal := Ideal.ofBits .f32 0x00000000#32
abbrev top : EReal := Ideal.ofBits .f32 0x7F800000#32

/-- The distance from point `i` of the first set to point `j` of the second, in batch `b`. -/
def dist (rowSq : Col.Idx → EReal) (colSq : Row.Idx → EReal) (rows cols : P3.Idx → EReal)
    (b : Fin 2) (i j : Fin 8192) : EReal :=
  Ideal.sqrt (max ((rowSq (ix3 b i 0) + colSq (ix3 b 0 j)) - two * ∑ d : Fin 3, rows (ix3 b i d) * cols (ix3 b j d)) zero)

/-- For each point of the first set, the distance to the nearest point of the second. -/
def rowMin (rowSq : Col.Idx → EReal) (colSq : Row.Idx → EReal) (rows cols : P3.Idx → EReal)
    (b : Fin 2) (i : Fin 8192) : EReal :=
  Finset.univ.fold min top fun j : Fin 8192 => dist rowSq colSq rows cols b i j

/-- For each point of the second set, the distance to the nearest point of the first. -/
def colMin (rowSq : Col.Idx → EReal) (colSq : Row.Idx → EReal) (rows cols : P3.Idx → EReal)
    (b : Fin 2) (j : Fin 8192) : EReal :=
  Finset.univ.fold min top fun i : Fin 8192 => dist rowSq colSq rows cols b i j

/-- The same with only the first `n` points of the first set taken: what the kernel's running row holds part-way. -/
def colMinBelow (rowSq : Col.Idx → EReal) (colSq : Row.Idx → EReal) (rows cols : P3.Idx → EReal)
    (b : Fin 2) (j : Fin 8192) (n : ℕ) : EReal :=
  FoldMinSeg.below top (fun i : Fin 8192 => dist rowSq colSq rows cols b i j) n

theorem colMinBelow_all (rowSq : Col.Idx → EReal) (colSq : Row.Idx → EReal) (rows cols : P3.Idx → EReal)
    (b : Fin 2) (j : Fin 8192) : colMinBelow rowSq colSq rows cols b j 8192 = colMin rowSq colSq rows cols b j :=
  FoldMinSeg.below_all _ _

/-- The two results as arrays over [2, 8192]. -/
def rowMinArr (rowSq : Col.Idx → EReal) (colSq : Row.Idx → EReal) (rows cols : P3.Idx → EReal) : Flat.Idx → EReal :=
  fun y => rowMin rowSq colSq rows cols (y 0) (y 1)
def colMinArr (rowSq : Col.Idx → EReal) (colSq : Row.Idx → EReal) (rows cols : P3.Idx → EReal) : Flat.Idx → EReal :=
  fun y => colMin rowSq colSq rows cols (y 0) (y 1)

end Cert.Chamfer

end
-- ==== Proof.Payload.lean ====
/-
  The body's payloads read at an index, at the ideal instance.

  `slab` is one entry of the 256 x 8192 slab of distances a grid point forms from its four input blocks. The payloads
  are then: the slab itself (through a matrix product into a zero accumulator, which at the ideal instance is the sum
  over the three coordinates), its row minima and column minima (a reduction with `min` over one axis is the fold of
  `min` over that axis from the initial pattern), the running minimum, and two re-layouts.
-/
import proofs.«135267_j4750233829481_1_alg».proof.Proof.Gen.KernelIdeal.Skeleton
import proofs.«135267_j4750233829481_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- One entry of the slab: row `r` of the tile against point `j` of the second set. -/
def slab (x0 : Vec Ideal S1x256x3 .f32) (x1 : Vec Ideal S1x3x8192 .f32) (x2 : Vec Ideal S1x256x1 .f32) (x3 : Vec Ideal S1x1x8192 .f32)
    (r : Fin 256) (j : Fin 8192) : EReal :=
  Ideal.sqrt (max ((x2 (ix3 0 r 0) + x3 (ix3 0 0 j)) - Chamfer.two * ∑ d : Fin 3, x0 (ix3 0 r d) * x1 (ix3 0 d j)) Chamfer.zero)

/-! ## Two layout readings at explicit coordinates

A vector laid out as a column, and a column repeated along the rows. -/

section Layout
variable {α : Type}

/-- An `[a]` array cast to `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The matrix product into a zero accumulator

The product contracts axis 1 of the left operand with axis 0 of the right one; at output `(r, j)` and contraction
coordinate `d` the operands are read at `(r, d)` and `(d, j)`. -/

theorem lhs_mm_0 (i : S256x8192.Idx) (q : dot_S256x3_S3x8192_S256x8192_1_0_0_1_n_n.contr.Idx) :
    (dot_S256x3_S3x8192_S256x8192_1_0_0_1_n_n.lhsIdx i q 0).val = (i 0).val := by
  unfold DotDims.lhsIdx
  rw [dif_neg (show ¬(0 : Fin S256x3.rank) ∈ dot_S256x3_S3x8192_S256x8192_1_0_0_1_n_n.lhsBatch by decide), dif_pos (show (0 : Fin S256x3.rank) ∈ dot_S256x3_S3x8192_S256x8192_1_0_0_1_n_n.lhsNonContracting by decide)]
  rfl
theorem lhs_mm_1 (i : S256x8192.Idx) (q : dot_S256x3_S3x8192_S256x8192_1_0_0_1_n_n.contr.Idx) :
    (dot_S256x3_S3x8192_S256x8192_1_0_0_1_n_n.lhsIdx i q 1).val = (q ⟨0, by decide⟩).val :=
  dot_S256x3_S3x8192_S256x8192_1_0_0_1_n_n.lhsIdx_val_of_single rfl i q
theorem rhs_mm_0 (i : S256x8192.Idx) (q : dot_S256x3_S3x8192_S256x8192_1_0_0_1_n_n.contr.Idx) :
    (dot_S256x3_S3x8192_S256x8192_1_0_0_1_n_n.rhsIdx i q 0).val = (q ⟨0, by decide⟩).val :=
  dot_S256x3_S3x8192_S256x8192_1_0_0_1_n_n.rhsIdx_val_of_single rfl i q
theorem rhs_mm_1 (i : S256x8192.Idx) (q : dot_S256x3_S3x8192_S256x8192_1_0_0_1_n_n.contr.Idx) :
    (dot_S256x3_S3x8192_S256x8192_1_0_0_1_n_n.rhsIdx i q 1).val = (i 1).val := by
  unfold DotDims.rhsIdx
  rw [dif_neg (show ¬(1 : Fin S3x8192.rank) ∈ dot_S256x3_S3x8192_S256x8192_1_0_0_1_n_n.rhsBatch by decide), dif_pos (show (1 : Fin S3x8192.rank) ∈ dot_S256x3_S3x8192_S256x8192_1_0_0_1_n_n.rhsNonContracting by decide)]
  rfl

/-- The product read at `(r, j)`: the sum over the three coordinates. -/
theorem mm_apply (A : FVec Ideal S256x3 .bf16) (B : FVec Ideal S3x8192 .bf16) (r : Fin 256) (j : Fin 8192) :
    matmul dot_S256x3_S3x8192_S256x8192_1_0_0_1_n_n none A B (constant (F := Ideal) S256x8192 .f32 0x00000000#32) (ix2 r j)
      = ∑ d : Fin 3, A (ix2 r d) * B (ix2 d j) := by
  simp only [matmul]
  rw [Ideal.matmul_constant_zero_apply, ← Equiv.sum_comp (contrEquiv1 dot_S256x3_S3x8192_S256x8192_1_0_0_1_n_n 3 rfl rfl).symm]
  refine Finset.sum_congr rfl fun k _ => ?_
  have hk := contrEquiv1_symm_val dot_S256x3_S3x8192_S256x8192_1_0_0_1_n_n 3 rfl rfl k
  have el : dot_S256x3_S3x8192_S256x8192_1_0_0_1_n_n.lhsIdx (ix2 r j) ((contrEquiv1 dot_S256x3_S3x8192_S256x8192_1_0_0_1_n_n 3 rfl rfl).symm k) = ix2 r k := funext fun a => Fin.ext (by
    match a with
    | ⟨0, _⟩ => exact lhs_mm_0 _ _
    | ⟨1, _⟩ => exact (lhs_mm_1 _ _).trans hk)
  have er : dot_S256x3_S3x8192_S256x8192_1_0_0_1_n_n.rhsIdx (ix2 r j) ((contrEquiv1 dot_S256x3_S3x8192_S256x8192_1_0_0_1_n_n 3 rfl rfl).symm k) = ix2 k j := funext fun a => Fin.ext (by
    match a with
    | ⟨0, _⟩ => exact (rhs_mm_0 _ _).trans hk
    | ⟨1, _⟩ => exact rhs_mm_1 _ _)
  rw [el, er]

/-! ## A minimum over one axis of the slab's shape

The reduction at a kept coordinate is the fold of `min`, from the value of the initial pattern, over the coordinates
of the dropped axis. -/

/-- Over the columns: at row `r`, the fold over `j` of the entries `(r, j)`. -/
theorem minCols_apply (src : FVec Ideal S256x8192 .f32) (r : Fin 256) :
    multiReduction (F := Ideal) .minimumf [1] S256 src 0x7F800000#32 reduces_S256x8192_S256 (.inl rfl) rfl (ix1 r)
      = Finset.univ.fold min Chamfer.top fun j : Fin 8192 => src (ix2 r j) := by
  refine (multiReduction_minimumf_eq_fold (F := Ideal) src _ reduces_S256x8192_S256 (.inl rfl) rfl (ix1 r)).trans ?_
  refine (reduces_S256x8192_S256.fold_filter_drop_single _ _ src (ix1 r)).trans ?_
  show Finset.univ.fold min Chamfer.top (fun k : Fin 8192 => src (reduces_S256x8192_S256.lift (ix1 r) k)) = _
  refine congrArg (fun f => Finset.univ.fold min Chamfer.top f) (funext fun k => congrArg src (funext fun c => Fin.ext ?_))
  match c with
  | ⟨0, _⟩ => rfl
  | ⟨1, _⟩ => rfl

/-- Over the rows: at column `j`, the fold over `r` of the entries `(r, j)`. -/
theorem minRows_apply (src : FVec Ideal S256x8192 .f32) (j : Fin 8192) :
    multiReduction (F := Ideal) .minimumf [0] S8192 src 0x7F800000#32 reduces_S256x8192_S8192 (.inl rfl) rfl (ix1 j)
      = Finset.univ.fold min Chamfer.top fun r : Fin 256 => src (ix2 r j) := by
  refine (multiReduction_minimumf_eq_fold (F := Ideal) src _ reduces_S256x8192_S8192 (.inl rfl) rfl (ix1 j)).trans ?_
  refine (reduces_S256x8192_S8192.fold_filter_drop_single _ _ src (ix1 j)).trans ?_
  show Finset.univ.fold min Chamfer.top (fun k : Fin 256 => src (reduces_S256x8192_S8192.lift (ix1 j) k)) = _
  refine congrArg (fun f => Finset.univ.fold min Chamfer.top f) (funext fun k => congrArg src (funext fun c => Fin.ext ?_))
  match c with
  | ⟨0, _⟩ => rfl
  | ⟨1, _⟩ => rfl

/-! ## The payloads -/

theorem pay3_apply (x0 : Vec Ideal S1x256x3 .f32) (x1 : Vec Ideal S1x3x8192 .f32) (x2 : Vec Ideal S1x256x1 .f32) (x3 : Vec Ideal S1x1x8192 .f32)
    (r : Fin 256) (j : Fin 8192) : k0_pay3 (F := Ideal) x0 x1 x2 x3 (ix2 r j) = slab x0 x1 x2 x3 r j := by
  unfold k0_pay3 slab
  show Ideal.sqrt (max
      ((broadcastTo S256x8192 (shapeCast S256x1 x2 shapeCasts_S1x256x1_S256x1) broadcasts_S256x1_S256x8192 (ix2 r j)
          + broadcastTo S256x8192 (shapeCast S1x8192 x3 shapeCasts_S1x1x8192_S1x8192) broadcasts_S1x8192_S256x8192 (ix2 r j))
        - Chamfer.two * matmul dot_S256x3_S3x8192_S256x8192_1_0_0_1_n_n none
            (truncf .bf16 (shapeCast S256x3 x0 shapeCasts_S1x256x3_S256x3) bitsLt_bf16_f32)
            (truncf .bf16 (shapeCast S3x8192 x1 shapeCasts_S1x3x8192_S3x8192) bitsLt_bf16_f32)
            (constant (F := Ideal) S256x8192 .f32 0x00000000#32) (ix2 r j))
      Chamfer.zero) = _
  rw [mm_apply, broadcastTo_a1_ab_apply, broadcastTo_1b_ab_apply, shapeCast_1ab_ab_apply, shapeCast_1ab_ab_apply]
  refine congrArg (fun s => Ideal.sqrt (max ((x2 (ix3 0 r 0) + x3 (ix3 0 0 j)) - Chamfer.two * s) Chamfer.zero))
    (Finset.sum_congr rfl fun d _ => ?_)
  show shapeCast S256x3 x0 shapeCasts_S1x256x3_S256x3 (ix2 r d) * shapeCast S3x8192 x1 shapeCasts_S1x3x8192_S3x8192 (ix2 d j) = _
  rw [shapeCast_1ab_ab_apply, shapeCast_1ab_ab_apply]

theorem pay4_apply (x0 : Vec Ideal S1x256x3 .f32) (x1 : Vec Ideal S1x3x8192 .f32) (x2 : Vec Ideal S1x256x1 .f32) (x3 : Vec Ideal S1x1x8192 .f32)
    (r : Fin 256) : k0_pay4 (F := Ideal) x0 x1 x2 x3 (ix3 0 r 0) = Finset.univ.fold min Chamfer.top fun j : Fin 8192 => slab x0 x1 x2 x3 r j := by
  unfold k0_pay4
  show shapeCast S1x256x1 (shapeCast S256x1
      (multiReduction (F := Ideal) .minimumf [1] S256 (k0_pay3 x0 x1 x2 x3) 0x7F800000#32 reduces_S256x8192_S256 (.inl rfl) rfl)
      shapeCasts_S256_S256x1) shapeCasts_S256x1_S1x256x1 (ix3 0 r 0) = _
  rw [shapeCast_ab_1ab_apply, shapeCast_a_a1_apply, minCols_apply]
  exact congrArg (fun f => Finset.univ.fold min Chamfer.top f) (funext fun j => pay3_apply x0 x1 x2 x3 r j)

theorem pay5_apply (x0 : Vec Ideal S1x256x3 .f32) (x1 : Vec Ideal S1x3x8192 .f32) (x2 : Vec Ideal S1x256x1 .f32) (x3 : Vec Ideal S1x1x8192 .f32)
    (j : Fin 8192) : k0_pay5 (F := Ideal) x0 x1 x2 x3 (ix2 0 j) = Finset.univ.fold min Chamfer.top fun r : Fin 256 => slab x0 x1 x2 x3 r j := by
  unfold k0_pay5
  show shapeCast S1x8192
      (multiReduction (F := Ideal) .minimumf [0] S8192 (k0_pay3 x0 x1 x2 x3) 0x7F800000#32 reduces_S256x8192_S8192 (.inl rfl) rfl)
      shapeCasts_S8192_S1x8192 (ix2 0 j) = _
  rw [shapeCast_a_1a_apply, minRows_apply]
  exact congrArg (fun f => Finset.univ.fold min Chamfer.top f) (funext fun r => pay3_apply x0 x1 x2 x3 r j)

theorem pay6_eq (x0 : Vec Ideal S1x256x3 .f32) (x1 : Vec Ideal S1x3x8192 .f32) (x2 : Vec Ideal S1x256x1 .f32) (x3 : Vec Ideal S1x1x8192 .f32) :
    k0_pay6 (F := Ideal) x0 x1 x2 x3 = k0_pay5 x0 x1 x2 x3 := by
  unfold k0_pay6
  exact shapeCast_self _ _

theorem pay1_apply (v26 : FVec Ideal S1x8192 .f32) (v36 : Vec Ideal S1x8192 .f32) (j : Fin 8192) :
    k0_pay1 (F := Ideal) v26 v36 (ix2 0 j) = min (v36 (ix2 0 j)) (v26 (ix2 0 j)) := by
  unfold k0_pay1
  show shapeCast S1x8192 (minimumf v36 v26) shapeCasts_S1x8192_S1x8192 (ix2 0 j) = _
  rw [shapeCast_self]
  rfl

theorem pay2_apply (v36 : Vec Ideal S1x8192 .f32) (j : Fin 8192) :
    k0_pay2 (F := Ideal) v36 (ix3 0 0 j) = v36 (ix2 0 j) := by
  unfold k0_pay2
  exact shapeCast_ab_1ab_apply _ _ 0 0 j

end Cert.KernelIdeal.Pay

end
-- ==== Proof.KernelValue.lean ====
/-
  The two output arrays of the kernel's region, as functions of the argument arrays.

  Point t is tile k = t % 32 of batch b = t / 32. Its input blocks are: rows 256k .. 256k + 255 of batch b of the
  first point set; all of batch b of the second point set, transposed; and the matching column and row of squared
  norms. So entry (r, j) of the point's slab is the specification's distance from point 256k + r to point j in batch
  b. The first output's block at t is therefore the block of the array of row minima. For the second output, the
  scratch row after point t holds, at j, the minimum of the distances from the first 256 (k + 1) points of batch b to
  point j - by induction on t: a batch's first tile stores its column minima, a later tile takes the minimum with its
  own - and at k = 31 that is the full column minimum, which is what the block written back there holds. Both
  outputs' written-back blocks tile their arrays, so each array ends at its whole-array function.
-/
import proofs.«135267_j4750233829481_1_alg».proof.Proof.Body
import proofs.«135267_j4750233829481_1_alg».proof.Proof.Spec
import proofs.«135267_j4750233829481_1_alg».proof.Proof.Payload
import Idealize.ShloMosaic.Lib.ValueIdx
import Idealize.ShloMosaic.Lib.Pipeline.Value
import Idealize.ShloMosaic.Lib.StableHlo.Run

set_option maxRecDepth 16384

noncomputable section

namespace Cert.KernelIdeal.KVal

open Cert.KernelIdeal Cert.KernelIdeal.Gen Cert.KernelIdeal.Body
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-- The two point sets as launched. -/
abbrev colsArr (c : Dev nD) : S2x8192x3.Idx → EReal := m ((c : Thread nD τ).loc main_arg0)
abbrev rowsArr (c : Dev nD) : S2x8192x3.Idx → EReal := m ((c : Thread nD τ).loc main_arg1)
abbrev colSqArr (c : Dev nD) : S2x1x8192.Idx → EReal := V m c main_call0_v5
abbrev rowSqArr (c : Dev nD) : S2x8192x1.Idx → EReal := V m c main_call0_v4

theorem V_rows (c : Dev nD) : (V m c main_arg1 : S2x8192x3.Idx → EReal) = rowsArr m c := V_main_arg1 m c

theorem V_colsT (c : Dev nD) : (V m c main_call0_v6 : S2x3x8192.Idx → EReal)
    = transpose S2x3x8192 [0, 2, 1] (colsArr m c) transposes_S2x8192x3_S2x3x8192_0_2_1 := by
  show StableHlo.after hostOps0 (fun b => m (c, b)) (Proc.devRef .tc main_call0_v6) = _
  after_results
  rfl

theorem N64 (t : Fin cfg0.N) : t.val < 64 := lt_of_lt_of_eq t.isLt (show cfg0.N = 64 from N_0)

/-- Point `t` is tile `t % 32` of batch `t / 32`. -/
def batchOf (t : Fin cfg0.N) : Fin 2 := ⟨t.val / 32, by have := N64 t; omega⟩
def rowOf (t : Fin cfg0.N) (r : Fin 256) : Fin 8192 := ⟨256 * (t.val % 32) + r.val, by have := r.isLt; omega⟩

theorem idx0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, win0_0.index t (0 : Fin 3) = t.val / 32 ∧ win0_0.index t (1 : Fin 3) = t.val % 32 ∧ win0_0.index t (2 : Fin 3) = 0)
theorem idx1 : ∀ t : Fin cfg0.N, win0_1.index t (0 : Fin 3) = t.val / 32 ∧ win0_1.index t (1 : Fin 3) = 0 ∧ win0_1.index t (2 : Fin 3) = 0 :=
  (by decide +kernel : ∀ t : Fin grid0.N, win0_1.index t (0 : Fin 3) = t.val / 32 ∧ win0_1.index t (1 : Fin 3) = 0 ∧ win0_1.index t (2 : Fin 3) = 0)

theorem rows_read (c : Dev nD) (t : Fin cfg0.N) (r : Fin 256) (d : Fin 3) :
    rowsBlk m c t (ix3 0 r d) = rowsArr m c (ix3 (batchOf t) (rowOf t r) d) := by
  obtain ⟨e0, e1, e2⟩ := idx0 t
  show V m c main_arg1 (((cfg0.win 0).blk t).view.emb (ix3 0 r d)) = _
  rw [V_rows]
  refine congrArg (rowsArr m c) (funext fun a => Fin.ext ?_)
  match a with
  | ⟨0, _⟩ => show win0_0.index t (0 : Fin 3) * 1 + 1 * 0 = t.val / 32; omega
  | ⟨1, _⟩ => show win0_0.index t (1 : Fin 3) * 256 + 1 * r.val = 256 * (t.val % 32) + r.val; omega
  | ⟨2, _⟩ => show win0_0.index t (2 : Fin 3) * 3 + 1 * d.val = d.val; omega

theorem idx2 : ∀ t : Fin cfg0.N, win0_2.index t (0 : Fin 3) = t.val / 32 ∧ win0_2.index t (1 : Fin 3) = t.val % 32 ∧ win0_2.index t (2 : Fin 3) = 0 :=
  (by decide +kernel : ∀ t : Fin grid0.N, win0_2.index t (0 : Fin 3) = t.val / 32 ∧ win0_2.index t (1 : Fin 3) = t.val % 32 ∧ win0_2.index t (2 : Fin 3) = 0)
theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)
theorem idx4 : ∀ t : Fin cfg0.N, win0_4.index t (0 : Fin 3) = t.val / 32 ∧ win0_4.index t (1 : Fin 3) = t.val % 32 ∧ win0_4.index t (2 : Fin 3) = 0 :=
  (by decide +kernel : ∀ t : Fin grid0.N, win0_4.index t (0 : Fin 3) = t.val / 32 ∧ win0_4.index t (1 : Fin 3) = t.val % 32 ∧ win0_4.index t (2 : Fin 3) = 0)
theorem idx5 : ∀ t : Fin cfg0.N, win0_5.index t (0 : Fin 3) = t.val / 32 ∧ win0_5.index t (1 : Fin 3) = 0 ∧ win0_5.index t (2 : Fin 3) = 0 :=
  (by decide +kernel : ∀ t : Fin grid0.N, win0_5.index t (0 : Fin 3) = t.val / 32 ∧ win0_5.index t (1 : Fin 3) = 0 ∧ win0_5.index t (2 : Fin 3) = 0)

/-- The second point set's block is batch `b` of the transposed array: entry (d, j) is coordinate d of point j. -/
theorem cols_read (c : Dev nD) (t : Fin cfg0.N) (d : Fin 3) (j : Fin 8192) :
    colsBlk m c t (ix3 0 d j) = colsArr m c (ix3 (batchOf t) j d) := by
  obtain ⟨e0, e1, e2⟩ := idx1 t
  show V m c main_call0_v6 (((cfg0.win 1).blk t).view.emb (ix3 0 d j)) = _
  rw [V_colsT]
  refine transpose_apply _ _ _ _ (ix3 (batchOf t) j d) fun b => ?_
  match b with
  | ⟨0, _⟩ => show t.val / 32 = win0_1.index t (0 : Fin 3) * 1 + 1 * 0; omega
  | ⟨1, _⟩ => show d.val = win0_1.index t (1 : Fin 3) * 3 + 1 * d.val; omega
  | ⟨2, _⟩ => show j.val = win0_1.index t (2 : Fin 3) * 8192 + 1 * j.val; omega

theorem rowSq_read (c : Dev nD) (t : Fin cfg0.N) (r : Fin 256) :
    rowSqBlk m c t (ix3 0 r 0) = rowSqArr m c (ix3 (batchOf t) (rowOf t r) 0) := by
  obtain ⟨e0, e1, e2⟩ := idx2 t
  show V m c main_call0_v4 (((cfg0.win 2).blk t).view.emb (ix3 0 r 0)) = _
  refine congrArg (rowSqArr m c) (funext fun a => Fin.ext ?_)
  match a with
  | ⟨0, _⟩ => show win0_2.index t (0 : Fin 3) * 1 + 1 * 0 = t.val / 32; omega
  | ⟨1, _⟩ => show win0_2.index t (1 : Fin 3) * 256 + 1 * r.val = 256 * (t.val % 32) + r.val; omega
  | ⟨2, _⟩ => show win0_2.index t (2 : Fin 3) * 1 + 1 * 0 = 0; omega

theorem colSq_read (c : Dev nD) (t : Fin cfg0.N) (j : Fin 8192) :
    colSqBlk m c t (ix3 0 0 j) = colSqArr m c (ix3 (batchOf t) 0 j) := by
  obtain ⟨e0, e1, e2⟩ := idx3 t
  show V m c main_call0_v5 (((cfg0.win 3).blk t).view.emb (ix3 0 0 j)) = _
  refine congrArg (colSqArr m c) (funext fun a => Fin.ext ?_)
  match a with
  | ⟨0, _⟩ => show win0_3.index t (0 : Fin 3) * 1 + 1 * 0 = t.val / 32; omega
  | ⟨1, _⟩ => show win0_3.index t (1 : Fin 3) * 1 + 1 * 0 = 0; omega
  | ⟨2, _⟩ => show win0_3.index t (2 : Fin 3) * 8192 + 1 * j.val = j.val; omega

/-- The distance, with this core's four arrays filled in. -/
abbrev distOf (c : Dev nD) : Fin 2 → Fin 8192 → Fin 8192 → EReal :=
  Chamfer.dist (rowSqArr m c) (colSqArr m c) (rowsArr m c) (colsArr m c)

/-- Entry (r, j) of point t's slab is the distance from point 256k + r to point j, in batch b. -/
theorem slab_eq (c : Dev nD) (t : Fin cfg0.N) (r : Fin 256) (j : Fin 8192) :
    Pay.slab (rowsBlk m c t) (colsBlk m c t) (rowSqBlk m c t) (colSqBlk m c t) r j = distOf m c (batchOf t) (rowOf t r) j := by
  unfold Pay.slab distOf Chamfer.dist
  have es : (∑ d : Fin 3, rowsBlk m c t (ix3 0 r d) * colsBlk m c t (ix3 0 d j))
      = ∑ d : Fin 3, rowsArr m c (ix3 (batchOf t) (rowOf t r) d) * colsArr m c (ix3 (batchOf t) j d) :=
    Finset.sum_congr rfl fun d _ => congrArg₂ (· * ·) (rows_read m c t r d) (cols_read m c t d j)
  exact congrArg₂ (fun u z => Ideal.sqrt (max (u - Chamfer.two * z) Chamfer.zero))
    (congrArg₂ (· + ·) (rowSq_read m c t r) (colSq_read m c t j)) es

/-- The first output's block at point t: the row minima of rows 256k .. 256k + 255 of batch b. -/
theorem rowMinAt_apply (c : Dev nD) (t : Fin cfg0.N) (r : Fin 256) :
    rowMinAt m c t (ix3 0 r 0) = Chamfer.rowMin (rowSqArr m c) (colSqArr m c) (rowsArr m c) (colsArr m c) (batchOf t) (rowOf t r) := by
  unfold rowMinAt
  refine (Pay.pay4_apply (rowsBlk m c t) (colsBlk m c t) (rowSqBlk m c t) (colSqBlk m c t) r).trans ?_
  unfold Chamfer.rowMin
  exact congrArg (Finset.univ.fold min Chamfer.top) (funext fun j => slab_eq m c t r j)

/-- The slab's column minima at point t: over rows 256k .. 256k + 255 of batch b. -/
theorem colMinAt_apply (c : Dev nD) (t : Fin cfg0.N) (j : Fin 8192) :
    colMinAt m c t (ix2 0 j) = Finset.univ.fold min Chamfer.top fun r : Fin 256 => distOf m c (batchOf t) (rowOf t r) j := by
  unfold colMinAt
  refine (Pay.pay5_apply (rowsBlk m c t) (colsBlk m c t) (rowSqBlk m c t) (colSqBlk m c t) j).trans ?_
  exact congrArg (Finset.univ.fold min Chamfer.top) (funext fun r => slab_eq m c t r j)

theorem colMinFirstAt_eq (c : Dev nD) (t : Fin cfg0.N) : colMinFirstAt m c t = colMinAt m c t := by
  unfold colMinFirstAt colMinAt
  exact Pay.pay6_eq _ _ _ _

theorem scAt_zero (c : Dev nD) (hn : 0 < cfg0.N) : scAt m c 0 hn = colMinFirstAt m c ⟨0, hn⟩ := rfl
theorem scAt_succ (c : Dev nD) (n : ℕ) (hn : n + 1 < cfg0.N) :
    scAt m c (n + 1) hn = if (n + 1) % 32 = 0 then colMinFirstAt m c ⟨n + 1, hn⟩
      else k0_pay1 (colMinAt m c ⟨n + 1, hn⟩) (scAt m c n (Nat.lt_of_succ_lt hn)) := rfl

/-- The minimum over a batch's first tile alone. -/
theorem first_tile (c : Dev nD) (t : Fin cfg0.N) (h : t.val % 32 = 0) (j : Fin 8192) :
    (Finset.univ.fold min Chamfer.top fun r : Fin 256 => distOf m c (batchOf t) (rowOf t r) j)
      = Chamfer.colMinBelow (rowSqArr m c) (colSqArr m c) (rowsArr m c) (colsArr m c) (batchOf t) j (256 * (t.val % 32 + 1)) := by
  unfold Chamfer.colMinBelow
  rw [show 256 * (t.val % 32 + 1) = 256 from by rw [h], FoldMinSeg.below_first _ _ 256 (by norm_num)]
  refine congrArg (Finset.univ.fold min Chamfer.top) (funext fun r => ?_)
  exact congrArg (fun i => distOf m c (batchOf t) i j) (Fin.ext (by show 256 * (t.val % 32) + r.val = r.val; omega))

/-- THE RUNNING MINIMUM. After point t the scratch row holds, at j, the minimum of the distances to point j from the
    first 256 (k + 1) points of the batch. -/
theorem scAt_eq (c : Dev nD) : ∀ (n : ℕ) (hn : n < cfg0.N) (j : Fin 8192),
    scAt m c n hn (ix2 0 j)
      = Chamfer.colMinBelow (rowSqArr m c) (colSqArr m c) (rowsArr m c) (colsArr m c) (batchOf ⟨n, hn⟩) j (256 * (n % 32 + 1)) := by
  intro n
  induction n with
  | zero =>
    intro hn j
    rw [scAt_zero, colMinFirstAt_eq, colMinAt_apply]
    exact first_tile m c ⟨0, hn⟩ rfl j
  | succ n ih =>
    intro hn j
    rw [scAt_succ]
    by_cases h : (n + 1) % 32 = 0
    · rw [if_pos h, colMinFirstAt_eq, colMinAt_apply]
      exact first_tile m c ⟨n + 1, hn⟩ h j
    · rw [if_neg h]
      refine (Pay.pay1_apply _ _ j).trans ?_
      rw [ih (Nat.lt_of_succ_lt hn) j, colMinAt_apply]
      have hN : n + 1 < 64 := N64 ⟨n + 1, hn⟩
      have hb : batchOf ⟨n, Nat.lt_of_succ_lt hn⟩ = batchOf ⟨n + 1, hn⟩ := Fin.ext (by show n / 32 = (n + 1) / 32; omega)
      rw [hb]
      unfold Chamfer.colMinBelow
      rw [show 256 * ((n + 1) % 32 + 1) = 256 * (n % 32 + 1) + 256 from by omega,
        FoldMinSeg.below_add _ _ (256 * (n % 32 + 1)) 256 (by omega)]
      refine congrArg (min _) (congrArg (Finset.univ.fold min Chamfer.top) (funext fun r => ?_))
      exact congrArg (fun i => distOf m c (batchOf ⟨n + 1, hn⟩) i j)
        (Fin.ext (by show 256 * ((n + 1) % 32) + r.val = 256 * (n % 32 + 1) + r.val; omega))

/-! ## The two output arrays -/

/-- The first output, [2, 8192, 1]: the row minima as a column. -/
def D1 (c : Dev nD) : S2x8192x1.Idx → EReal := fun y =>
  Chamfer.rowMin (rowSqArr m c) (colSqArr m c) (rowsArr m c) (colsArr m c) (y 0) (y 1)
/-- The second output, [2, 1, 8192]: the column minima as a row. -/
def D2 (c : Dev nD) : S2x1x8192.Idx → EReal := fun y =>
  Chamfer.colMin (rowSqArr m c) (colSqArr m c) (rowsArr m c) (colsArr m c) (y 0) (y 2)

/-- A block index of a [1, 256, 1] block is its row; of a [1, 1, 8192] block, its lane. -/
theorem exists_col (y : S1x256x1.Idx) : ∃ r : Fin 256, y = ix3 0 r 0 :=
  ⟨⟨(y 1).val, (y 1).isLt⟩, funext fun a => by
    match a with
    | ⟨0, _⟩ => exact Fin.ext (Nat.lt_one_iff.mp (show (y 0).val < 1 from (y 0).isLt))
    | ⟨1, _⟩ => rfl
    | ⟨2, _⟩ => exact Fin.ext (Nat.lt_one_iff.mp (show (y 2).val < 1 from (y 2).isLt))⟩

theorem exists_row (y : S1x1x8192.Idx) : ∃ j : Fin 8192, y = ix3 0 0 j :=
  ⟨⟨(y 2).val, (y 2).isLt⟩, funext fun a => by
    match a with
    | ⟨0, _⟩ => exact Fin.ext (Nat.lt_one_iff.mp (show (y 0).val < 1 from (y 0).isLt))
    | ⟨1, _⟩ => exact Fin.ext (Nat.lt_one_iff.mp (show (y 1).val < 1 from (y 1).isLt))
    | ⟨2, _⟩ => rfl⟩

/-- WHAT POINT t WRITES BACK into the first output is block t of `D1`. -/
theorem flushed4_eq (c : Dev nD) (t : Fin cfg0.N) :
    (dats m 0 c).flushed 4 t = ((cfg0.win 4).blk t).view.read (Elt Ideal) (D1 m c) := by
  show (cfg0.win 4).cut (grid0.coords t) ((dats m 0 c).after 4 t) = _
  rw [after0_4]
  obtain ⟨e0, e1, e2⟩ := idx4 t
  funext y
  show rowMinAt m c t y = D1 m c (((cfg0.win 4).blk t).view.emb y)
  obtain ⟨r, rfl⟩ := exists_col y
  rw [rowMinAt_apply]
  unfold D1
  exact congrArg₂ (Chamfer.rowMin (rowSqArr m c) (colSqArr m c) (rowsArr m c) (colsArr m c))
    (Fin.ext (by show t.val / 32 = win0_4.index t (0 : Fin 3) * 1 + 1 * 0; omega))
    (Fin.ext (by show 256 * (t.val % 32) + r.val = win0_4.index t (1 : Fin 3) * 256 + 1 * r.val; omega))

/-- WHAT A BATCH'S LAST TILE WRITES BACK into the second output is its block of `D2`. -/
theorem flushed5_eq (c : Dev nD) (t : Fin cfg0.N) (hf : (cfg0.win 5).flush t = true) :
    (dats m 0 c).flushed 5 t = ((cfg0.win 5).blk t).view.read (Elt Ideal) (D2 m c) := by
  have hL : t.val % 32 = 31 := (flush0_5 t).mp hf
  show (cfg0.win 5).cut (grid0.coords t) ((dats m 0 c).after 5 t) = _
  rw [after0_5]
  obtain ⟨e0, e1, e2⟩ := idx5 t
  funext y
  show k0_pay2 (scAt m c t.val t.isLt) y = D2 m c (((cfg0.win 5).blk t).view.emb y)
  obtain ⟨j, rfl⟩ := exists_row y
  rw [Pay.pay2_apply, scAt_eq m c t.val t.isLt j]
  rw [show 256 * (t.val % 32 + 1) = 8192 from by omega, Chamfer.colMinBelow_all]
  unfold D2
  exact congrArg₂ (Chamfer.colMin (rowSqArr m c) (colSqArr m c) (rowsArr m c) (colsArr m c))
    (Fin.ext (by show t.val / 32 = win0_5.index t (0 : Fin 3) * 1 + 1 * 0; omega))
    (Fin.ext (by show j.val = win0_5.index t (2 : Fin 3) * 8192 + 1 * j.val; omega))

/-- An index of an output array is in point t's block iff each coordinate is in the block's range on its axis. -/
theorem mem_blk4 (t : Fin cfg0.N) (i : S2x8192x1.Idx) :
    i ∈ ((cfg0.win 4).blk t).view.set ↔ ∀ a : Fin 3, win0_4.index t a * S1x256x1.size a ≤ (i a).val ∧ (i a).val < win0_4.index t a * S1x256x1.size a + S1x256x1.size a := by
  show i ∈ ((View.whole main_call0_v7_0).slice (win0_4.rect t)).set ↔ _
  rw [View.set_slice_whole, Rect.mem_set_unit]
  exact Iff.rfl
theorem mem_blk5 (t : Fin cfg0.N) (i : S2x1x8192.Idx) :
    i ∈ ((cfg0.win 5).blk t).view.set ↔ ∀ a : Fin 3, win0_5.index t a * S1x1x8192.size a ≤ (i a).val ∧ (i a).val < win0_5.index t a * S1x1x8192.size a + S1x1x8192.size a := by
  show i ∈ ((View.whole main_call0_v7_1).slice (win0_5.rect t)).set ↔ _
  rw [View.set_slice_whole, Rect.mem_set_unit]
  exact Iff.rfl

/-- Row i of batch b lies in the block of tile i / 256 of that batch. -/
theorem cover4 (i : S2x8192x1.Idx) : ∃ t : Fin cfg0.N, (cfg0.win 4).flush t = true ∧ i ∈ ((cfg0.win 4).blk t).view.set := by
  have h0 : (i 0).val < 2 := (i 0).isLt
  have h1 : (i 1).val < 8192 := (i 1).isLt
  have h2 : (i 2).val < 1 := (i 2).isLt
  have hN : cfg0.N = 64 := N_0
  let t : Fin cfg0.N := ⟨32 * (i 0).val + (i 1).val / 256, by omega⟩
  obtain ⟨e0, e1, e2⟩ := idx4 t
  have et : t.val = 32 * (i 0).val + (i 1).val / 256 := rfl
  refine ⟨t, flush0_4 t, (mem_blk4 t i).mpr fun a => ?_⟩
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1 ≤ (i 2).val ∧ (i 2).val < win0_4.index t (2 : Fin 3) * 1 + 1; omega

/-- Every index of batch b lies in the block its last tile writes back. -/
theorem cover5 (i : S2x1x8192.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 8192 := (i 2).isLt
  have hN : cfg0.N = 64 := N_0
  let t : Fin cfg0.N := ⟨32 * (i 0).val + 31, by omega⟩
  obtain ⟨e0, e1, e2⟩ := idx5 t
  have et : t.val = 32 * (i 0).val + 31 := rfl
  refine ⟨t, (flush0_5 t).mpr (by omega), (mem_blk5 t i).mpr fun a => ?_⟩
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 8192 ≤ (i 2).val ∧ (i 2).val < win0_5.index t (2 : Fin 3) * 8192 + 8192; omega

/-- THE ARRAYS after the region. -/
theorem final4 (c : Dev nD) : (dats m 0 c).arrAt 4 cfg0.N = D1 m c :=
  (dats m 0 c).arrAt_eq_of_cover 4 (D1 m c) (fun t _ => flushed4_eq m c t) cover4
theorem final5 (c : Dev nD) : (dats m 0 c).arrAt 5 cfg0.N = D2 m c :=
  (dats m 0 c).arrAt_eq_of_cover 5 (D2 m c) (fun t hf => flushed5_eq m c t hf) cover5

end Cert.KernelIdeal.KVal

end
-- ==== Proof.Mean.lean ====
/-
  The last stretch both programs share: from the two arrays of nearest-neighbour distances to the scalar result.

  Each array is summed over its 8192 points and divided by 8192, per batch; the two means are added; the sum over
  the two batches is divided by 2. The operations are kept as the programs print them and are never opened: both
  sides apply this one function, so the claim reduces to its two arguments.
-/
import proofs.«135267_j4750233829481_1_alg».proof.Proof.Gen.KernelIdeal
import Idealize.ShloMosaic.PureOps.Ideal

noncomputable section

namespace Cert.KernelIdeal.Mean

open Cert.KernelIdeal Cert.KernelIdeal.Gen Idealize.ShloMosaic

/-- The symmetric mean of the two arrays, averaged over the batches. -/
def mean2 (d1 d2 : (⟨S2x8192, .f32⟩ : BufTy).Contents (Elt Ideal)) : (⟨S_, .f32⟩ : BufTy).Contents (Elt Ideal) :=
  Host.divf (F := Ideal)
    (Host.reduceAdd (F := Ideal)
      (addf (F := Ideal)
        (Host.divf (F := Ideal) (Host.reduceAdd (F := Ideal) d1 (constant (F := Ideal) S_ .f32 0x00000000#32) reducesTo_S2x8192_S2_d1 h_S_)
          (broadcastInDim S2 ![] bcast_S_S2 (constant (F := Ideal) S_ .f32 0x46000000#32)))
        (Host.divf (F := Ideal) (Host.reduceAdd (F := Ideal) d2 (constant (F := Ideal) S_ .f32 0x00000000#32) reducesTo_S2x8192_S2_d1 h_S_)
          (broadcastInDim S2 ![] bcast_S_S2 (constant (F := Ideal) S_ .f32 0x46000000#32))))
      (constant (F := Ideal) S_ .f32 0x00000000#32) reducesTo_S2_S_d0 h_S_)
    (constant (F := Ideal) S_ .f32 0x40000000#32)

end Cert.KernelIdeal.Mean

end
-- ==== Proof.KernelRun.lean ====
/-
  The kernel program's run at the ideal instance, with its result named.

  After the region the program reshapes the two output arrays to [2, 8192] and applies the shared mean. The region
  leaves the first output at the array of row minima and the second at the array of column minima (the module on the
  output arrays), and a reshape that only drops a unit axis keeps each entry: so the result is the shared mean of the
  specification's two arrays, taken at this core's point sets and squared norms.
-/
import proofs.«135267_j4750233829481_1_alg».proof.Proof.KernelValue
import proofs.«135267_j4750233829481_1_alg».proof.Proof.Mean

set_option maxRecDepth 16384

noncomputable section

namespace Cert.KernelIdeal.KVal

open Cert.KernelIdeal Cert.KernelIdeal.Gen Cert.KernelIdeal.Body
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

theorem exists_flat (y : S2x8192.Idx) : ∃ (b : Fin 2) (i : Fin 8192), y = ix2 b i :=
  ⟨⟨(y 0).val, (y 0).isLt⟩, ⟨(y 1).val, (y 1).isLt⟩, funext fun a => by
    match a with
    | ⟨0, _⟩ => rfl
    | ⟨1, _⟩ => rfl⟩

/-- The column of row minima, with its unit axis dropped, is the specification's array. -/
theorem D1_flat (c : Dev nD) :
    shapeCast S2x8192 (D1 m c) shapeCasts_S2x8192x1_S2x8192
      = Chamfer.rowMinArr (rowSqArr m c) (colSqArr m c) (rowsArr m c) (colsArr m c) := by
  funext y
  obtain ⟨b, i, rfl⟩ := exists_flat y
  refine (shapeCast_apply (D1 m c) _ (ix2 b i) (ix3 b i 0) ?_).trans rfl
  rw [Shape.rowMajor_val_three, Shape.rowMajor_val_two]
  show (b.val * 8192 + i.val) * 1 + 0 = b.val * 8192 + i.val
  omega

/-- The row of column minima, with its unit axis dropped, is the specification's array. -/
theorem D2_flat (c : Dev nD) :
    shapeCast S2x8192 (D2 m c) shapeCasts_S2x1x8192_S2x8192
      = Chamfer.colMinArr (rowSqArr m c) (colSqArr m c) (rowsArr m c) (colsArr m c) := by
  funext y
  obtain ⟨b, j, rfl⟩ := exists_flat y
  refine (shapeCast_apply (D2 m c) _ (ix2 b j) (ix3 b 0 j) ?_).trans rfl
  rw [Shape.rowMajor_val_three, Shape.rowMajor_val_two]
  show (b.val * 1 + 0) * 8192 + j.val = b.val * 8192 + j.val
  omega

/-- What the host operations after the region leave in the result buffer. -/
theorem tail_value (c : Dev nD) :
    Pipeline.afterTail₀ cfgs (dats m) 0 (V0 m) [hostOps1] c main_v0
      = Mean.mean2 (shapeCast S2x8192 (D1 m c) shapeCasts_S2x8192x1_S2x8192) (shapeCast S2x8192 (D2 m c) shapeCasts_S2x1x8192_S2x8192) := by
  unfold Pipeline.afterTail₀
  show StableHlo.after hostOps1 _ (Proc.devRef .tc main_v0) = _
  after_results
  have e4 := (Pipeline.withArrays_arr (cfgs 0).spec launch0.win.arr_inj c (V0 m c) (fun w => (dats m 0 c).arrAt w (cfgs 0).N) 4).trans (final4 m c)
  have e5 := (Pipeline.withArrays_arr (cfgs 0).spec launch0.win.arr_inj c (V0 m c) (fun w => (dats m 0 c).arrAt w (cfgs 0).N) 5).trans (final5 m c)
  rw [← e4, ← e5]
  rfl

/-- The result, as the shared mean of the specification's two arrays. -/
abbrev resultOf (c : Dev nD) : (⟨S_, .f32⟩ : BufTy).Contents (Elt Ideal) :=
  Mean.mean2 (Chamfer.rowMinArr (rowSqArr m c) (colSqArr m c) (rowsArr m c) (colsArr m c))
    (Chamfer.colMinArr (rowSqArr m c) (colSqArr m c) (rowsArr m c) (colsArr m c))

/-- THE RUN: every weakly fair execution of the kernel program terminates with the result buffer at `resultOf` and both
    argument arrays as launched. -/
theorem run : θ_run defs (onTc (τ := τ) (main (F := Ideal))) ⟨m, fun _ => 0, ρ⟩ fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans
        ((tail_value m c).trans (by rw [D1_flat, D2_flat])),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.KVal

end
-- ==== Proof.RefValue.lean ====
/-
  The reference's two nearest-neighbour arrays are the specification's.

  The reference forms the full 8192 x 8192 distance array per batch from broadcasts of the squared norms and a batched
  product of the two point sets, then reduces it with `min` over its last axis (for each point of the first set) and
  over its middle axis (for each point of the second). Read at an index, each reduction is the fold of `min` over the
  reduced axis from the initial pattern, and each entry of the distance array is `Chamfer.dist`.
-/
import proofs.«135267_j4750233829481_1_alg».proof.Proof.Gen.ReferenceIdeal.Read
import proofs.«135267_j4750233829481_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-- One entry of the reference's distance array: the broadcasts read the squared norms at (b, i, 0) and (b, 0, j), the
    batched product is the sum over the three coordinates, and the constants are the patterns of 2 and 0. -/
theorem v15_ix3 (x0 x1 : (⟨S2x8192x3, .f32⟩ : BufTy).Contents (Elt Ideal)) (b : Fin 2) (i j : Fin 8192) :
    val_main_v15 (F := Ideal) x0 x1 (ix3 b i j)
      = Chamfer.dist (val_main_v5 (F := Ideal) x1) (val_main_v6 (F := Ideal) x0) x1 x0 b i j := by
  have e7 : idx_main_v7 (ix3 b i j) = ix3 b i 0 :=
    funext fun a => Fin.ext (by match a with | ⟨0, _⟩ => rfl | ⟨1, _⟩ => rfl | ⟨2, _⟩ => rfl)
  have e8 : idx_main_v8 (ix3 b i j) = ix3 b 0 j :=
    funext fun a => Fin.ext (by match a with | ⟨0, _⟩ => rfl | ⟨1, _⟩ => rfl | ⟨2, _⟩ => rfl)
  have el : ∀ d : Fin 3, lidx_main_v4 (ix3 b i j) d = ix3 b i d := fun d =>
    funext fun a => Fin.ext (by match a with | ⟨0, _⟩ => rfl | ⟨1, _⟩ => rfl | ⟨2, _⟩ => rfl)
  have er : ∀ d : Fin 3, ridx_main_v4 (ix3 b i j) d = ix3 b j d := fun d =>
    funext fun a => Fin.ext (by match a with | ⟨0, _⟩ => rfl | ⟨1, _⟩ => rfl | ⟨2, _⟩ => rfl)
  rw [val_main_v15_apply, val_main_v14_apply, val_main_v13_apply, val_main_v12_apply, val_main_v11_apply,
    val_main_v10_apply, val_main_v9_apply, val_main_v8_apply, val_main_v7_apply, val_main_v4_apply,
    val_main_cst_1_apply, val_main_cst_2_apply, e7, e8]
  simp only [el, er, Ideal.hostUnary_sqrt_def, Ideal.maximumf_def, Ideal.subf_def, Ideal.addf_def, Ideal.mulf_def,
    Ideal.ofBits_def]
  rfl

/-- The distance array's shape loses its last axis, or its middle axis, to the shape of the results. -/
theorem reduces_d2 : S2x8192x8192.Reduces [2] S2x8192 := by decide
theorem reduces_d1 : S2x8192x8192.Reduces [1] S2x8192 := by decide

/-- Over result index (b, i), the source index with coordinate k on the last axis is (b, i, k). -/
theorem lift_d2 (b : Fin 2) (i k : Fin 8192) : reduces_d2.lift (ix2 b i) k = ix3 b i k :=
  funext fun a => Fin.ext (by match a with | ⟨0, _⟩ => rfl | ⟨1, _⟩ => rfl | ⟨2, _⟩ => rfl)

/-- Over result index (b, j), the source index with coordinate k on the middle axis is (b, k, j). -/
theorem lift_d1 (b : Fin 2) (j k : Fin 8192) : reduces_d1.lift (ix2 b j) k = ix3 b k j :=
  funext fun a => Fin.ext (by match a with | ⟨0, _⟩ => rfl | ⟨1, _⟩ => rfl | ⟨2, _⟩ => rfl)

/-- Per point of the first set (`x1`), the distance to the nearest point of the second (`x0`). -/
theorem v16_eq (x0 x1 : (⟨S2x8192x3, .f32⟩ : BufTy).Contents (Elt Ideal)) :
    val_main_v16 (F := Ideal) x0 x1 = Chamfer.rowMinArr (val_main_v5 (F := Ideal) x1) (val_main_v6 (F := Ideal) x0) x1 x0 := by
  funext y
  obtain ⟨b, i, rfl⟩ : ∃ (b : Fin 2) (i : Fin 8192), y = ix2 b i := ⟨y 0, y 1, eq_ix2 y⟩
  unfold val_main_v16
  rw [Host.reduce_eq_fold_single FloatOps.minimumf _ _ reducesTo_S2x8192x8192_S2x8192_d2 reduces_d2 h_S_]
  show Finset.fold min Chamfer.top (fun k : Fin 8192 => val_main_v15 (F := Ideal) x0 x1 (reduces_d2.lift (ix2 b i) k)) Finset.univ
    = Finset.fold min Chamfer.top (fun j : Fin 8192 => Chamfer.dist (val_main_v5 (F := Ideal) x1) (val_main_v6 (F := Ideal) x0) x1 x0 b i j) Finset.univ
  exact congrArg (fun f => Finset.fold min Chamfer.top f Finset.univ) (funext fun k => by rw [lift_d2, v15_ix3])

/-- Per point of the second set, the distance to the nearest point of the first. -/
theorem v17_eq (x0 x1 : (⟨S2x8192x3, .f32⟩ : BufTy).Contents (Elt Ideal)) :
    val_main_v17 (F := Ideal) x0 x1 = Chamfer.colMinArr (val_main_v5 (F := Ideal) x1) (val_main_v6 (F := Ideal) x0) x1 x0 := by
  funext y
  obtain ⟨b, j, rfl⟩ : ∃ (b : Fin 2) (j : Fin 8192), y = ix2 b j := ⟨y 0, y 1, eq_ix2 y⟩
  unfold val_main_v17
  rw [Host.reduce_eq_fold_single FloatOps.minimumf _ _ reducesTo_S2x8192x8192_S2x8192_d1 reduces_d1 h_S_]
  show Finset.fold min Chamfer.top (fun k : Fin 8192 => val_main_v15 (F := Ideal) x0 x1 (reduces_d1.lift (ix2 b j) k)) Finset.univ
    = Finset.fold min Chamfer.top (fun i : Fin 8192 => Chamfer.dist (val_main_v5 (F := Ideal) x1) (val_main_v6 (F := Ideal) x0) x1 x0 b i j) Finset.univ
  exact congrArg (fun f => Finset.fold min Chamfer.top f Finset.univ) (funext fun k => by rw [lift_d1, v15_ix3])

end Cert.ReferenceIdeal.RefValue

end
-- ==== Proof.lean ====
/-
  Chamfer distance between two clouds of 8192 points in three coordinates, two batches: a tiled kernel against the
  plain formulation, equal over the extended reals.

  Both programs form, per batch, the distances d(i, j) = sqrt (max (|a_i|^2 + |b_j|^2 - 2 a_i . b_j, 0)), take for each
  a_i the minimum over j and for each b_j the minimum over i, and return the mean over batches of the sum of the two
  means. The reference builds the whole 8192 x 8192 array and reduces it twice. The kernel walks 32 tiles of 256 rows
  per batch: a tile's row minima are final at once; its column minima are folded into a running row kept across the
  tiles, which after the last tile is the full column minimum. Equality needs only that `min` is associative,
  commutative and idempotent, that a sum of three products does not depend on how it is spelled, and that the
  narrowing of the product's operands is the identity at the ideal instance; no finiteness of the inputs is used.

  The kernel's frame (it runs to the end, faults nowhere, keeps its arguments) is proved once at any float instance and
  cited at the word-level and at the ideal instance; the reference's frame is its run with the result dropped; the
  idealization rewrote nothing, so there is nothing to preserve.
-/
import proofs.«135267_j4750233829481_1_alg».proof.Defs
import proofs.«135267_j4750233829481_1_alg».proof.Proof.Gen.Kernel
import proofs.«135267_j4750233829481_1_alg».proof.Proof.Gen.KernelIdeal
import proofs.«135267_j4750233829481_1_alg».proof.Proof.Gen.ReferenceIdeal
import proofs.«135267_j4750233829481_1_alg».proof.Proof.Gen.Pre_finite_inputs
import proofs.«135267_j4750233829481_1_alg».proof.Proof.Gen.ReferenceIdeal.Run
import proofs.«135267_j4750233829481_1_alg».proof.Proof.Gen.ReferenceIdeal.Read
import proofs.«135267_j4750233829481_1_alg».proof.Proof.BodyK
import proofs.«135267_j4750233829481_1_alg».proof.Proof.KernelRun
import proofs.«135267_j4750233829481_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo
open Cert.KernelIdeal.KVal

/-! ## The frames -/

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-! ## The two programs compute one function -/

/-- The squared norms the kernel's host prefix hands to the region are the reference's own stages of the same
    point sets: the same sums of squares, broadcast to a column and to a row. -/
theorem rowSq_eq (m : (ℓ : Loc Cert.KernelIdeal.nD Cert.KernelIdeal.τ Cert.KernelIdeal.sig) → Buf (Elt Ideal) ℓ) (c : Dev Cert.KernelIdeal.nD) :
    rowSqArr m c = Cert.ReferenceIdeal.Read.val_main_v5 (F := Ideal) (rowsArr m c) := by
  show StableHlo.after Cert.KernelIdeal.Gen.hostOps0 (fun b => m (c, b)) (Proc.devRef .tc Cert.KernelIdeal.main_call0_v4) = _
  after_results
  rfl
theorem colSq_eq (m : (ℓ : Loc Cert.KernelIdeal.nD Cert.KernelIdeal.τ Cert.KernelIdeal.sig) → Buf (Elt Ideal) ℓ) (c : Dev Cert.KernelIdeal.nD) :
    colSqArr m c = Cert.ReferenceIdeal.Read.val_main_v6 (F := Ideal) (colsArr m c) := by
  show StableHlo.after Cert.KernelIdeal.Gen.hostOps0 (fun b => m (c, b)) (Proc.devRef .tc Cert.KernelIdeal.main_call0_v5) = _
  after_results
  rfl

/-- The reference's last stretch is the shared mean of its two arrays of minima. -/
theorem ref_result (x0 x1 : (⟨Cert.ReferenceIdeal.S2x8192x3, .f32⟩ : BufTy).Contents (Elt Ideal)) :
    Cert.ReferenceIdeal.Read.val_main_v26 (F := Ideal) x0 x1
      = Cert.KernelIdeal.Mean.mean2 (Cert.ReferenceIdeal.Read.val_main_v16 (F := Ideal) x0 x1) (Cert.ReferenceIdeal.Read.val_main_v17 (F := Ideal) x0 x1) := rfl

/-- From memories that agree on the two point sets both programs end with the shared mean of the specification's
    row minima and column minima. -/
theorem algebraic : Cert.algebraic_KernelIdeal_ReferenceIdeal := by
  intro m ρ m' ρ' _ hagree
  refine ⟨fun c => resultOf m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v26_eq _ _).trans ?_
  rw [ref_result, Cert.ReferenceIdeal.RefValue.v16_eq, Cert.ReferenceIdeal.RefValue.v17_eq]
  show Cert.KernelIdeal.Mean.mean2
      (Cert.Chamfer.rowMinArr (Cert.ReferenceIdeal.Read.val_main_v5 (F := Ideal) (rowsArr m c)) (Cert.ReferenceIdeal.Read.val_main_v6 (F := Ideal) (colsArr m c)) (rowsArr m c) (colsArr m c))
      (Cert.Chamfer.colMinArr (Cert.ReferenceIdeal.Read.val_main_v5 (F := Ideal) (rowsArr m c)) (Cert.ReferenceIdeal.Read.val_main_v6 (F := Ideal) (colsArr m c)) (rowsArr m c) (colsArr m c))
    = resultOf m c
  rw [← rowSq_eq m c, ← colSq_eq m c]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
